-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x160 : Shape := ⟨3, ![16, 2048, 160]⟩
abbrev S160x160 : Shape := ⟨2, ![160, 160]⟩
abbrev S160 : Shape := ⟨1, ![160]⟩
abbrev S_ : Shape := ⟨0, ![]⟩

class Facts : Prop where
  bcast_S_S16x2048x160 : S_.BroadcastsInDim S16x2048x160 (![] : Fin 0 → Fin S16x2048x160.rank)
  reducesTo_S16x2048x160_S_d0_1_2 : S16x2048x160.ReducesTo [0, 1, 2] S_
  h_S_ : 0 < S_.numel
  bcast_S_S160x160 : S_.BroadcastsInDim S160x160 (![] : Fin 0 → Fin S160x160.rank)
  reducesTo_S160x160_S_d0_1 : S160x160.ReducesTo [0, 1] S_
  bcast_S_S160 : S_.BroadcastsInDim S160 (![] : Fin 0 → Fin S160.rank)
  reducesTo_S160_S_d0 : S160.ReducesTo [0] S_

variable [Facts]

def fn_part2 {F : FTy → Type} [FloatOps F] (main_arg7 : FVec F S160 .f32) (main_v33 : IVec S_ 1) : IVec S_ 1 :=
  let main_v34 : FVec F S160 .f32 := Host.absf main_arg7
  let main_cst_12 : FVec F S_ .f32 := constant S_ .f32 0x7F800000#32
  let main_v35 : FVec F S160 .f32 := broadcastInDim S160 ![] bcast_S_S160 main_cst_12
  let main_v36 : IVec S160 1 := cmpf .olt main_v34 main_v35
  let main_c_13 : IVec S_ 1 := constantI S_ 1 1#1
  let main_v37 : IVec S_ 1 := (fun x v => Host.reduce IntOp.andi x v reducesTo_S160_S_d0 h_S_) main_v36 main_c_13
  let main_v38 : IVec S_ 1 := andi main_v33 main_v37
  main_v38

def fn_part1 {F : FTy → Type} [FloatOps F] (main_arg4 : FVec F S160x160 .f32) (main_arg5 : FVec F S160 .f32) (main_arg6 : FVec F S160x160 .f32) (main_arg7 : FVec F S160 .f32) (main_v13 : IVec S_ 1) (main_v16 : IVec S160 1) : IVec S_ 1 :=
  let main_c_5 : IVec S_ 1 := constantI S_ 1 1#1
  let main_v17 : IVec S_ 1 := (fun x v => Host.reduce IntOp.andi x v reducesTo_S160_S_d0 h_S_) main_v16 main_c_5
  let main_v18 : IVec S_ 1 := andi main_v13 main_v17
  let main_v19 : FVec F S160x160 .f32 := Host.absf main_arg4
  let main_cst_6 : FVec F S_ .f32 := constant S_ .f32 0x7F800000#32
  let main_v20 : FVec F S160x160 .f32 := broadcastInDim S160x160 ![] bcast_S_S160x160 main_cst_6
  let main_v21 : IVec S160x160 1 := cmpf .olt main_v19 main_v20
  let main_c_7 : IVec S_ 1 := constantI S_ 1 1#1
  let main_v22 : IVec S_ 1 := (fun x v => Host.reduce IntOp.andi x v reducesTo_S160x160_S_d0_1 h_S_) main_v21 main_c_7
  let main_v23 : IVec S_ 1 := andi main_v18 main_v22
  let main_v24 : FVec F S160 .f32 := Host.absf main_arg5
  let main_cst_8 : FVec F S_ .f32 := constant S_ .f32 0x7F800000#32
  let main_v25 : FVec F S160 .f32 := broadcastInDim S160 ![] bcast_S_S160 main_cst_8
  let main_v26 : IVec S160 1 := cmpf .olt main_v24 main_v25
  let main_c_9 : IVec S_ 1 := constantI S_ 1 1#1
  let main_v27 : IVec S_ 1 := (fun x v => Host.reduce IntOp.andi x v reducesTo_S160_S_d0 h_S_) main_v26 main_c_9
  let main_v28 : IVec S_ 1 := andi main_v23 main_v27
  let main_v29 : FVec F S160x160 .f32 := Host.absf main_arg6
  let main_cst_10 : FVec F S_ .f32 := constant S_ .f32 0x7F800000#32
  let main_v30 : FVec F S160x160 .f32 := broadcastInDim S160x160 ![] bcast_S_S160x160 main_cst_10
  let main_v31 : IVec S160x160 1 := cmpf .olt main_v29 main_v30
  let main_c_11 : IVec S_ 1 := constantI S_ 1 1#1
  let main_v32 : IVec S_ 1 := (fun x v => Host.reduce IntOp.andi x v reducesTo_S160x160_S_d0_1 h_S_) main_v31 main_c_11
  let main_v33 : IVec S_ 1 := andi main_v28 main_v32
  fn_part2 (F := F) main_arg7 main_v33

def fn {F : FTy → Type} [FloatOps F] (main_arg0 : FVec F S16x2048x160 .f32) (main_arg1 : FVec F S16x2048x160 .f32) (main_arg2 : FVec F S160x160 .f32) (main_arg3 : FVec F S160 .f32) (main_arg4 : FVec F S160x160 .f32) (main_arg5 : FVec F S160 .f32) (main_arg6 : FVec F S160x160 .f32) (main_arg7 : FVec F S160 .f32) : IVec S_ 1 :=
  let main_v0 : FVec F S16x2048x160 .f32 := Host.absf main_arg0
  let main_cst : FVec F S_ .f32 := constant S_ .f32 0x7F800000#32
  let main_v1 : FVec F S16x2048x160 .f32 := broadcastInDim S16x2048x160 ![] bcast_S_S16x2048x160 main_cst
  let main_v2 : IVec S16x2048x160 1 := cmpf .olt main_v0 main_v1
  let main_c : IVec S_ 1 := constantI S_ 1 1#1
  let main_v3 : IVec S_ 1 := (fun x v => Host.reduce IntOp.andi x v reducesTo_S16x2048x160_S_d0_1_2 h_S_) main_v2 main_c
  let main_v4 : FVec F S16x2048x160 .f32 := Host.absf main_arg1
  let main_cst_0 : FVec F S_ .f32 := constant S_ .f32 0x7F800000#32
  let main_v5 : FVec F S16x2048x160 .f32 := broadcastInDim S16x2048x160 ![] bcast_S_S16x2048x160 main_cst_0
  let main_v6 : IVec S16x2048x160 1 := cmpf .olt main_v4 main_v5
  let main_c_1 : IVec S_ 1 := constantI S_ 1 1#1
  let main_v7 : IVec S_ 1 := (fun x v => Host.reduce IntOp.andi x v reducesTo_S16x2048x160_S_d0_1_2 h_S_) main_v6 main_c_1
  let main_v8 : IVec S_ 1 := andi main_v3 main_v7
  let main_v9 : FVec F S160x160 .f32 := Host.absf main_arg2
  let main_cst_2 : FVec F S_ .f32 := constant S_ .f32 0x7F800000#32
  let main_v10 : FVec F S160x160 .f32 := broadcastInDim S160x160 ![] bcast_S_S160x160 main_cst_2
  let main_v11 : IVec S160x160 1 := cmpf .olt main_v9 main_v10
  let main_c_3 : IVec S_ 1 := constantI S_ 1 1#1
  let main_v12 : IVec S_ 1 := (fun x v => Host.reduce IntOp.andi x v reducesTo_S160x160_S_d0_1 h_S_) main_v11 main_c_3
  let main_v13 : IVec S_ 1 := andi main_v8 main_v12
  let main_v14 : FVec F S160 .f32 := Host.absf main_arg3
  let main_cst_4 : FVec F S_ .f32 := constant S_ .f32 0x7F800000#32
  let main_v15 : FVec F S160 .f32 := broadcastInDim S160 ![] bcast_S_S160 main_cst_4
  let main_v16 : IVec S160 1 := cmpf .olt main_v14 main_v15
  fn_part1 (F := F) main_arg4 main_arg5 main_arg6 main_arg7 main_v13 main_v16
-- ==== Kernel.lean ====
abbrev S16x2048x160 : Shape := ⟨3, ![16, 2048, 160]⟩
abbrev S160x160 : Shape := ⟨2, ![160, 160]⟩
abbrev S160 : Shape := ⟨1, ![160]⟩
abbrev S1x160 : Shape := ⟨2, ![1, 160]⟩
abbrev S1x512x160 : Shape := ⟨3, ![1, 512, 160]⟩
abbrev S512x160 : Shape := ⟨2, ![512, 160]⟩
abbrev S1x2048x160 : Shape := ⟨3, ![1, 2048, 160]⟩
abbrev S2048x160 : Shape := ⟨2, ![2048, 160]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S1x160, .f32⟩
  | .hbm, ⟨9, _⟩ => ⟨S1x160, .f32⟩
  | .hbm, ⟨10, _⟩ => ⟨S1x160, .f32⟩
  | .hbm, ⟨11, _⟩ => ⟨S16x2048x160, .f32⟩
  | .hbm, ⟨12, _⟩ => ⟨S16x2048x160, .f32⟩
  | .hbm, ⟨13, _⟩ => ⟨S16x2048x160, .f32⟩
  | .local _ .vmem, ⟨0, _⟩ => ⟨S1x512x160, .f32⟩
  | .local _ .vmem, ⟨1, _⟩ => ⟨S1x512x160, .f32⟩
  | .local _ .vmem, ⟨2, _⟩ => ⟨S160x160, .f32⟩
  | .local _ .vmem, ⟨3, _⟩ => ⟨S1x160, .f32⟩
  | .local _ .vmem, ⟨4, _⟩ => ⟨S160x160, .f32⟩
  | .local _ .vmem, ⟨5, _⟩ => ⟨S1x160, .f32⟩
  | .local _ .vmem, ⟨6, _⟩ => ⟨S1x512x160, .f32⟩
  | .local _ .vmem, ⟨7, _⟩ => ⟨S1x512x160, .f32⟩
  | .local _ .vmem, ⟨8, _⟩ => ⟨S1x512x160, .f32⟩
  | .local _ .vmem, ⟨9, _⟩ => ⟨S1x512x160, .f32⟩
  | .local _ .vmem, ⟨10, _⟩ => ⟨S1x512x160, .f32⟩
  | .local _ .vmem, ⟨11, _⟩ => ⟨S1x512x160, .f32⟩
  | .local _ .vmem, ⟨12, _⟩ => ⟨S160x160, .f32⟩
  | .local _ .vmem, ⟨13, _⟩ => ⟨S1x160, .f32⟩
  | .local _ .vmem, ⟨14, _⟩ => ⟨S1x2048x160, .f32⟩
  | .local _ .vmem, ⟨15, _⟩ => ⟨S1x2048x160, .f32⟩
  | .local _ .vmem, ⟨16, _⟩ => ⟨S1x2048x160, .f32⟩
  | .local _ .vmem, ⟨17, _⟩ => ⟨S1x2048x160, .f32⟩
  | .local _ .vmem, ⟨18, _⟩ => ⟨S1x512x160, .f32⟩
  | .local _ .vmem, ⟨19, _⟩ => ⟨S1x512x160, .f32⟩
  | _, _ => ⟨S16x2048x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S160x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S160x160 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x160 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x160 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x160 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x160 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S160x160 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x160 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x2048x160 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x2048x160 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x512x160 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  shapeCasts_S160_S1x160 : S160.ShapeCasts S1x160
  inb_S1x512x160_S1x512x160_0_0_0 : ∀ a, (![0, 0, 0] : Fin 3 → Nat) a + S1x512x160.size a ≤ S1x512x160.size a
  h_S1x512x160 : 0 < S1x512x160.numel
  shapeCasts_S1x512x160_S512x160 : S1x512x160.ShapeCasts S512x160
  inb_S160x160_S160x160_0_0 : ∀ a, (![0, 0] : Fin 2 → Nat) a + S160x160.size a ≤ S160x160.size a
  h_S160x160 : 0 < S160x160.numel
  inb_S1x160_S1x160_0_0 : ∀ a, (![0, 0] : Fin 2 → Nat) a + S1x160.size a ≤ S1x160.size a
  h_S1x160 : 0 < S1x160.numel
  shapeCasts_S1x160_S1x160 : S1x160.ShapeCasts S1x160
  broadcasts_S1x160_S512x160 : S1x160.Broadcasts S512x160
  shapeCasts_S512x160_S1x512x160 : S512x160.ShapeCasts S1x512x160
  inb_S1x2048x160_S1x2048x160_0_0_0 : ∀ a, (![0, 0, 0] : Fin 3 → Nat) a + S1x2048x160.size a ≤ S1x2048x160.size a
  h_S1x2048x160 : 0 < S1x2048x160.numel
  shapeCasts_S1x2048x160_S2048x160 : S1x2048x160.ShapeCasts S2048x160
  reduces_S512x2048_S512 : S512x2048.Reduces [1] S512
  shapeCasts_S512_S512x1 : S512.ShapeCasts S512x1
  broadcasts_S512x1_S512x2048 : S512x1.Broadcasts S512x2048
  dot_S512x160_S160x160_S512x160_1_0_0_1_n_n_wf : DotDims.WF S512x160 S160x160 S512x160 [1] [0] [0] [1] [] []
  dot_S512x160_S2048x160_S512x2048_1_1_0_0_n_n_wf : DotDims.WF S512x160 S2048x160 S512x2048 [1] [1] [0] [0] [] []
  dot_S512x2048_S2048x160_S512x160_1_0_0_1_n_n_wf : DotDims.WF S512x2048 S2048x160 S512x160 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x160.size a ≤ S16x2048x160.size a
  hwx0_0 : ∀ i : grid0.Coords, EltTy.bits .f32 = 32 ∨ (Rect.block (s := S16x2048x160) S1x512x160.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S160x160.size a ≤ S160x160.size a
  hwx0_1 : ∀ i : grid0.Coords, EltTy.bits .f32 = 32 ∨ (Rect.block (s := S160x160) S160x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x160.size a ≤ S160x160.size a
  hwx0_3 : ∀ i : grid0.Coords, EltTy.bits .f32 = 32 ∨ (Rect.block (s := S160x160) S160x160.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x160.size a ≤ S1x160.size a
  hwx0_4 : ∀ i : grid0.Coords, EltTy.bits .f32 = 32 ∨ (Rect.block (s := S1x160) S1x160.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x160.size a ≤ S16x2048x160.size a
  hwx0_5 : ∀ i : grid0.Coords, EltTy.bits .f32 = 32 ∨ (Rect.block (s := S16x2048x160) S1x512x160.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x160.size a ≤ S16x2048x160.size a
  hwx0_6 : ∀ i : grid0.Coords, EltTy.bits .f32 = 32 ∨ (Rect.block (s := S16x2048x160) S1x512x160.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x160.size a ≤ S16x2048x160.size a
  hwx1_0 : ∀ i : grid1.Coords, EltTy.bits .f32 = 32 ∨ (Rect.block (s := S16x2048x160) S1x512x160.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S160x160.size a ≤ S160x160.size a
  hwx1_1 : ∀ i : grid1.Coords, EltTy.bits .f32 = 32 ∨ (Rect.block (s := S160x160) S160x160.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x160.size a ≤ S1x160.size a
  hwx1_2 : ∀ i : grid1.Coords, EltTy.bits .f32 = 32 ∨ (Rect.block (s := S1x160) S1x160.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x2048x160.size a ≤ S16x2048x160.size a
  hwx1_3 : ∀ i : grid1.Coords, EltTy.bits .f32 = 32 ∨ (Rect.block (s := S16x2048x160) S1x2048x160.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x160.size a ≤ S16x2048x160.size a
  hwx1_4 : ∀ i : grid1.Coords, EltTy.bits .f32 = 32 ∨ (Rect.block (s := S16x2048x160) S1x2048x160.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x160.size a ≤ S16x2048x160.size a
  hwx1_5 : ∀ i : grid1.Coords, EltTy.bits .f32 = 32 ∨ (Rect.block (s := S16x2048x160) S1x512x160.size (cc1_transform_5 i) (hinb1_5 i)).WholeWords (EltTy.packing .f32)

variable [Facts₀]

def dot_S512x160_S160x160_S512x160_1_0_0_1_n_n : DotDims S512x160 S160x160 S512x160 where
  lhsContracting := [1]
  rhsContracting := [0]
  lhsNonContracting := [0]
  rhsNonContracting := [1]
  lhsBatch := []
  rhsBatch := []
  wf := dot_S512x160_S160x160_S512x160_1_0_0_1_n_n_wf
def dot_S512x160_S2048x160_S512x2048_1_1_0_0_n_n : DotDims S512x160 S2048x160 S512x2048 where
  lhsContracting := [1]
  rhsContracting := [1]
  lhsNonContracting := [0]
  rhsNonContracting := [0]
  lhsBatch := []
  rhsBatch := []
  wf := dot_S512x160_S2048x160_S512x2048_1_1_0_0_n_n_wf
def dot_S512x2048_S2048x160_S512x160_1_0_0_1_n_n : DotDims S512x2048 S2048x160 S512x160 where
  lhsContracting := [1]
  rhsContracting := [0]
  lhsNonContracting := [0]
  rhsNonContracting := [1]
  lhsBatch := []
  rhsBatch := []
  wf := dot_S512x2048_S2048x160_S512x160_1_0_0_1_n_n_wf

abbrev win0_0 : Pipeline.Window sig grid0 :=
  Pipeline.Window.ofSpec (Memref.whole main_arg1) S1x512x160.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S160x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S160x160.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x160.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x512x160.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x512x160.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg0) S1x512x160.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S160x160.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x160.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x2048x160.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x2048x160.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v4) S1x512x160.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S16x2048x160 : Shape := ⟨3, ![16, 2048, 160]⟩
abbrev S160x160 : Shape := ⟨2, ![160, 160]⟩
abbrev S160 : Shape := ⟨1, ![160]⟩
abbrev S1x1x160 : Shape := ⟨3, ![1, 1, 160]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 37
  | .vmem => 0
  | .smem => 0
  | _ => 0

abbrev bufTy : (tb : Table) → Fin (tcTables nBuf tb) → BufTy
  | .hbm, ⟨0, _⟩ => ⟨S16x2048x160, .f32⟩
  | .hbm, ⟨1, _⟩ => ⟨S16x2048x160, .f32⟩
  | .hbm, ⟨2, _⟩ => ⟨S160x160, .f32⟩
  | .hbm, ⟨3, _⟩ => ⟨S160, .f32⟩
  | .hbm, ⟨4, _⟩ => ⟨S160x160, .f32⟩
  | .hbm, ⟨5, _⟩ => ⟨S160, .f32⟩
  | .hbm, ⟨6, _⟩ => ⟨S160x160, .f32⟩
  | .hbm, ⟨7, _⟩ => ⟨S160, .f32⟩
  | .hbm, ⟨8, _⟩ => ⟨S16x2048x160, .f32⟩
  | .hbm, ⟨9, _⟩ => ⟨S1x1x160, .f32⟩
  | .hbm, ⟨10, _⟩ => ⟨S16x2048x160, .f32⟩
  | .hbm, ⟨11, _⟩ => ⟨S16x2048x160, .f32⟩
  | .hbm, ⟨12, _⟩ => ⟨S16x2048x160, .f32⟩
  | .hbm, ⟨13, _⟩ => ⟨S1x1x160, .f32⟩
  | .hbm, ⟨14, _⟩ => ⟨S16x2048x160, .f32⟩
  | .hbm, ⟨15, _⟩ => ⟨S16x2048x160, .f32⟩
  | .hbm, ⟨16, _⟩ => ⟨S16x2048x160, .f32⟩
  | .hbm, ⟨17, _⟩ => ⟨S1x1x160, .f32⟩
  | .hbm, ⟨18, _⟩ => ⟨S16x2048x160, .f32⟩
  | .hbm, ⟨19, _⟩ => ⟨S16x2048x160, .f32⟩
  | .hbm, ⟨20, _⟩ => ⟨S16x2048x2048, .f32⟩
  | .hbm, ⟨21, _⟩ => ⟨S_, .f32⟩
  | .hbm, ⟨22, _⟩ => ⟨S16x2048, .f32⟩
  | .hbm, ⟨23, _⟩ => ⟨S_, .f32⟩
  | .hbm, ⟨24, _⟩ => ⟨S16x2048, .f32⟩
  | .hbm, ⟨25, _⟩ => ⟨S16x2048, .f32⟩
  | .hbm, ⟨26, _⟩ => ⟨S16x2048x1, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S_, .f32⟩
  | .hbm, ⟨31, _⟩ => ⟨S16x2048, .f32⟩
  | .hbm, ⟨32, _⟩ => ⟨S16x2048x1, .f32⟩
  | .hbm, ⟨33, _⟩ => ⟨S16x2048x2048, .f32⟩
  | .hbm, ⟨34, _⟩ => ⟨S16x2048x2048, .f32⟩
  | .hbm, ⟨35, _⟩ => ⟨S16x2048x160, .f32⟩
  | .hbm, ⟨36, _⟩ => ⟨S16x2048x160, .f32⟩
  | _, _ => ⟨S16x2048x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]

class Facts₀ : Prop where
  bcast_S160_S1x1x160_2 : S160.BroadcastsInDim S1x1x160 (![2] : Fin 1 → Fin S1x1x160.rank)
  bcast_S1x1x160_S16x2048x160_0_1_2 : S1x1x160.BroadcastsInDim S16x2048x160 (![0, 1, 2] : Fin 3 → Fin S16x2048x160.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x160_S160x160_S16x2048x160_2_0_01_1_n_n_wf : DotDims.WF S16x2048x160 S160x160 S16x2048x160 [2] [0] [0, 1] [1] [] []
  dot_S16x2048x160_S16x2048x160_S16x2048x2048_2_2_1_1_0_0_wf : DotDims.WF S16x2048x160 S16x2048x160 S16x2048x2048 [2] [2] [1] [1] [0] [0]
  dot_S16x2048x2048_S16x2048x160_S16x2048x160_2_1_1_2_0_0_wf : DotDims.WF S16x2048x2048 S16x2048x160 S16x2048x160 [2] [1] [1] [2] [0] [0]

variable [Facts₀]

def dot_S16x2048x160_S160x160_S16x2048x160_2_0_01_1_n_n : DotDims S16x2048x160 S160x160 S16x2048x160 where
  lhsContracting := [2]
  rhsContracting := [0]
  lhsNonContracting := [0, 1]
  rhsNonContracting := [1]
  lhsBatch := []
  rhsBatch := []
  wf := dot_S16x2048x160_S160x160_S16x2048x160_2_0_01_1_n_n_wf
def dot_S16x2048x160_S16x2048x160_S16x2048x2048_2_2_1_1_0_0 : DotDims S16x2048x160 S16x2048x160 S16x2048x2048 where
  lhsContracting := [2]
  rhsContracting := [2]
  lhsNonContracting := [1]
  rhsNonContracting := [1]
  lhsBatch := [0]
  rhsBatch := [0]
  wf := dot_S16x2048x160_S16x2048x160_S16x2048x2048_2_2_1_1_0_0_wf
def dot_S16x2048x2048_S16x2048x160_S16x2048x160_2_1_1_2_0_0 : DotDims S16x2048x2048 S16x2048x160 S16x2048x160 where
  lhsContracting := [2]
  rhsContracting := [1]
  lhsNonContracting := [1]
  rhsNonContracting := [2]
  lhsBatch := [0]
  rhsBatch := [0]
  wf := dot_S16x2048x2048_S16x2048x160_S16x2048x160_2_1_1_2_0_0_wf

class Facts : Prop extends Facts₀ where

variable [Facts]
-- ==== Proof.KMatmul.lean ====
/-
  The kernel's three matrix products, read at an index of the result at the ideal values.  Each accumulates into a
  zero splat, so the entry is the plain sum over the contracted axis of the operands' products:
  rows times a weight matrix (`∑ d, a (r, d) * b (d, c)`), query rows times key rows contracted along the feature
  axis of both (`∑ d, a (r, d) * b (c, d)`), and weights times value rows (`∑ j, a (r, j) * b (j, c)`).
  For each: where the dot's dimension numbers send an output index and a contraction index on either operand's axes,
  one fact per axis, then the contraction index renamed by its one coordinate.
-/
import proofs.«131270_g83305185673742_cont_9to1c4b_147_2_alg».proof.Proof.Gen.KernelIdeal
import Idealize.ShloMosaic.Lib.ValueIdx
import Idealize.ShloMosaic.PureOps.Ideal.Laws

noncomputable section

namespace Cert.KernelIdeal.Products

open Cert.KernelIdeal Cert.KernelIdeal.Gen Idealize.ShloMosaic Idealize.ShloMosaic.ValueIdx

/-! ## Rows times a square weight matrix: `[512, 160] · [160, 160]` -/

theorem lhs_w_0 (i : S512x160.Idx) (q : dot_S512x160_S160x160_S512x160_1_0_0_1_n_n.contr.Idx) :
    (dot_S512x160_S160x160_S512x160_1_0_0_1_n_n.lhsIdx i q 0).val = (i 0).val := by
  unfold DotDims.lhsIdx
  rw [dif_neg (show ¬(0 : Fin S512x160.rank) ∈ dot_S512x160_S160x160_S512x160_1_0_0_1_n_n.lhsBatch by decide), dif_pos (show (0 : Fin S512x160.rank) ∈ dot_S512x160_S160x160_S512x160_1_0_0_1_n_n.lhsNonContracting by decide)]
  rfl
theorem lhs_w_1 (i : S512x160.Idx) (q : dot_S512x160_S160x160_S512x160_1_0_0_1_n_n.contr.Idx) :
    (dot_S512x160_S160x160_S512x160_1_0_0_1_n_n.lhsIdx i q 1).val = (q ⟨0, by decide⟩).val :=
  dot_S512x160_S160x160_S512x160_1_0_0_1_n_n.lhsIdx_val_of_single rfl i q
theorem rhs_w_1 (i : S512x160.Idx) (q : dot_S512x160_S160x160_S512x160_1_0_0_1_n_n.contr.Idx) :
    (dot_S512x160_S160x160_S512x160_1_0_0_1_n_n.rhsIdx i q 1).val = (i 1).val := by
  unfold DotDims.rhsIdx
  rw [dif_neg (show ¬(1 : Fin S160x160.rank) ∈ dot_S512x160_S160x160_S512x160_1_0_0_1_n_n.rhsBatch by decide), dif_pos (show (1 : Fin S160x160.rank) ∈ dot_S512x160_S160x160_S512x160_1_0_0_1_n_n.rhsNonContracting by decide)]
  rfl
theorem rhs_w_0 (i : S512x160.Idx) (q : dot_S512x160_S160x160_S512x160_1_0_0_1_n_n.contr.Idx) :
    (dot_S512x160_S160x160_S512x160_1_0_0_1_n_n.rhsIdx i q 0).val = (q ⟨0, by decide⟩).val :=
  dot_S512x160_S160x160_S512x160_1_0_0_1_n_n.rhsIdx_val_of_single rfl i q

/-- Entry `(r, c)` of a block of rows times a weight matrix: the row against the column. -/
theorem rows_weight_apply (a : FVec Ideal S512x160 .f32) (b : FVec Ideal S160x160 .f32) (r : Fin 512) (c : Fin 160) :
    matmul dot_S512x160_S160x160_S512x160_1_0_0_1_n_n none a b (constant (F := Ideal) S512x160 .f32 0x00000000#32) (ix2 r c)
      = ∑ k : Fin 160, a (ix2 r k) * b (ix2 k c) := by
  simp only [matmul]
  rw [Ideal.matmul_constant_zero_apply, ← Equiv.sum_comp (ValueIdx.contrEquiv1 dot_S512x160_S160x160_S512x160_1_0_0_1_n_n 160 rfl rfl).symm]
  refine Finset.sum_congr rfl fun k _ => ?_
  have hk := ValueIdx.contrEquiv1_symm_val dot_S512x160_S160x160_S512x160_1_0_0_1_n_n 160 rfl rfl k
  have el : dot_S512x160_S160x160_S512x160_1_0_0_1_n_n.lhsIdx (ix2 r c) ((ValueIdx.contrEquiv1 dot_S512x160_S160x160_S512x160_1_0_0_1_n_n 160 rfl rfl).symm k) = ix2 r k := funext fun ax => Fin.ext (by
    match ax with
    | ⟨0, _⟩ => exact lhs_w_0 _ _
    | ⟨1, _⟩ => exact (lhs_w_1 _ _).trans hk)
  have er : dot_S512x160_S160x160_S512x160_1_0_0_1_n_n.rhsIdx (ix2 r c) ((ValueIdx.contrEquiv1 dot_S512x160_S160x160_S512x160_1_0_0_1_n_n 160 rfl rfl).symm k) = ix2 k c := funext fun ax => Fin.ext (by
    match ax with
    | ⟨0, _⟩ => exact (rhs_w_0 _ _).trans hk
    | ⟨1, _⟩ => exact rhs_w_1 _ _)
  rw [el, er]

/-! ## Query rows against key rows: `[512, 160] · [2048, 160]ᵀ` -/

theorem lhs_s_0 (i : S512x2048.Idx) (q : dot_S512x160_S2048x160_S512x2048_1_1_0_0_n_n.contr.Idx) :
    (dot_S512x160_S2048x160_S512x2048_1_1_0_0_n_n.lhsIdx i q 0).val = (i 0).val := by
  unfold DotDims.lhsIdx
  rw [dif_neg (show ¬(0 : Fin S512x160.rank) ∈ dot_S512x160_S2048x160_S512x2048_1_1_0_0_n_n.lhsBatch by decide), dif_pos (show (0 : Fin S512x160.rank) ∈ dot_S512x160_S2048x160_S512x2048_1_1_0_0_n_n.lhsNonContracting by decide)]
  rfl
theorem lhs_s_1 (i : S512x2048.Idx) (q : dot_S512x160_S2048x160_S512x2048_1_1_0_0_n_n.contr.Idx) :
    (dot_S512x160_S2048x160_S512x2048_1_1_0_0_n_n.lhsIdx i q 1).val = (q ⟨0, by decide⟩).val :=
  dot_S512x160_S2048x160_S512x2048_1_1_0_0_n_n.lhsIdx_val_of_single rfl i q
theorem rhs_s_0 (i : S512x2048.Idx) (q : dot_S512x160_S2048x160_S512x2048_1_1_0_0_n_n.contr.Idx) :
    (dot_S512x160_S2048x160_S512x2048_1_1_0_0_n_n.rhsIdx i q 0).val = (i 1).val := by
  unfold DotDims.rhsIdx
  rw [dif_neg (show ¬(0 : Fin S2048x160.rank) ∈ dot_S512x160_S2048x160_S512x2048_1_1_0_0_n_n.rhsBatch by decide), dif_pos (show (0 : Fin S2048x160.rank) ∈ dot_S512x160_S2048x160_S512x2048_1_1_0_0_n_n.rhsNonContracting by decide)]
  rfl
theorem rhs_s_1 (i : S512x2048.Idx) (q : dot_S512x160_S2048x160_S512x2048_1_1_0_0_n_n.contr.Idx) :
    (dot_S512x160_S2048x160_S512x2048_1_1_0_0_n_n.rhsIdx i q 1).val = (q ⟨0, by decide⟩).val :=
  dot_S512x160_S2048x160_S512x2048_1_1_0_0_n_n.rhsIdx_val_of_single rfl i q

/-- Entry `(r, c)` of the scores: query row `r` against key row `c`, along the feature axis of both. -/
theorem query_key_apply (a : FVec Ideal S512x160 .f32) (b : FVec Ideal S2048x160 .f32) (r : Fin 512) (c : Fin 2048) :
    matmul dot_S512x160_S2048x160_S512x2048_1_1_0_0_n_n none a b (constant (F := Ideal) S512x2048 .f32 0x00000000#32) (ix2 r c)
      = ∑ k : Fin 160, a (ix2 r k) * b (ix2 c k) := by
  simp only [matmul]
  rw [Ideal.matmul_constant_zero_apply, ← Equiv.sum_comp (ValueIdx.contrEquiv1 dot_S512x160_S2048x160_S512x2048_1_1_0_0_n_n 160 rfl rfl).symm]
  refine Finset.sum_congr rfl fun k _ => ?_
  have hk := ValueIdx.contrEquiv1_symm_val dot_S512x160_S2048x160_S512x2048_1_1_0_0_n_n 160 rfl rfl k
  have el : dot_S512x160_S2048x160_S512x2048_1_1_0_0_n_n.lhsIdx (ix2 r c) ((ValueIdx.contrEquiv1 dot_S512x160_S2048x160_S512x2048_1_1_0_0_n_n 160 rfl rfl).symm k) = ix2 r k := funext fun ax => Fin.ext (by
    match ax with
    | ⟨0, _⟩ => exact lhs_s_0 _ _
    | ⟨1, _⟩ => exact (lhs_s_1 _ _).trans hk)
  have er : dot_S512x160_S2048x160_S512x2048_1_1_0_0_n_n.rhsIdx (ix2 r c) ((ValueIdx.contrEquiv1 dot_S512x160_S2048x160_S512x2048_1_1_0_0_n_n 160 rfl rfl).symm k) = ix2 c k := funext fun ax => Fin.ext (by
    match ax with
    | ⟨0, _⟩ => exact rhs_s_0 _ _
    | ⟨1, _⟩ => exact (rhs_s_1 _ _).trans hk)
  rw [el, er]

/-! ## Weights times value rows: `[512, 2048] · [2048, 160]` -/

theorem lhs_o_0 (i : S512x160.Idx) (q : dot_S512x2048_S2048x160_S512x160_1_0_0_1_n_n.contr.Idx) :
    (dot_S512x2048_S2048x160_S512x160_1_0_0_1_n_n.lhsIdx i q 0).val = (i 0).val := by
  unfold DotDims.lhsIdx
  rw [dif_neg (show ¬(0 : Fin S512x2048.rank) ∈ dot_S512x2048_S2048x160_S512x160_1_0_0_1_n_n.lhsBatch by decide), dif_pos (show (0 : Fin S512x2048.rank) ∈ dot_S512x2048_S2048x160_S512x160_1_0_0_1_n_n.lhsNonContracting by decide)]
  rfl
theorem lhs_o_1 (i : S512x160.Idx) (q : dot_S512x2048_S2048x160_S512x160_1_0_0_1_n_n.contr.Idx) :
    (dot_S512x2048_S2048x160_S512x160_1_0_0_1_n_n.lhsIdx i q 1).val = (q ⟨0, by decide⟩).val :=
  dot_S512x2048_S2048x160_S512x160_1_0_0_1_n_n.lhsIdx_val_of_single rfl i q
theorem rhs_o_1 (i : S512x160.Idx) (q : dot_S512x2048_S2048x160_S512x160_1_0_0_1_n_n.contr.Idx) :
    (dot_S512x2048_S2048x160_S512x160_1_0_0_1_n_n.rhsIdx i q 1).val = (i 1).val := by
  unfold DotDims.rhsIdx
  rw [dif_neg (show ¬(1 : Fin S2048x160.rank) ∈ dot_S512x2048_S2048x160_S512x160_1_0_0_1_n_n.rhsBatch by decide), dif_pos (show (1 : Fin S2048x160.rank) ∈ dot_S512x2048_S2048x160_S512x160_1_0_0_1_n_n.rhsNonContracting by decide)]
  rfl
theorem rhs_o_0 (i : S512x160.Idx) (q : dot_S512x2048_S2048x160_S512x160_1_0_0_1_n_n.contr.Idx) :
    (dot_S512x2048_S2048x160_S512x160_1_0_0_1_n_n.rhsIdx i q 0).val = (q ⟨0, by decide⟩).val :=
  dot_S512x2048_S2048x160_S512x160_1_0_0_1_n_n.rhsIdx_val_of_single rfl i q

/-- Entry `(r, c)` of the weighted sum: weight row `r` against column `c` of the values. -/
theorem weight_value_apply (a : FVec Ideal S512x2048 .f32) (b : FVec Ideal S2048x160 .f32) (r : Fin 512) (c : Fin 160) :
    matmul dot_S512x2048_S2048x160_S512x160_1_0_0_1_n_n none a b (constant (F := Ideal) S512x160 .f32 0x00000000#32) (ix2 r c)
      = ∑ k : Fin 2048, a (ix2 r k) * b (ix2 k c) := by
  simp only [matmul]
  rw [Ideal.matmul_constant_zero_apply, ← Equiv.sum_comp (ValueIdx.contrEquiv1 dot_S512x2048_S2048x160_S512x160_1_0_0_1_n_n 2048 rfl rfl).symm]
  refine Finset.sum_congr rfl fun k _ => ?_
  have hk := ValueIdx.contrEquiv1_symm_val dot_S512x2048_S2048x160_S512x160_1_0_0_1_n_n 2048 rfl rfl k
  have el : dot_S512x2048_S2048x160_S512x160_1_0_0_1_n_n.lhsIdx (ix2 r c) ((ValueIdx.contrEquiv1 dot_S512x2048_S2048x160_S512x160_1_0_0_1_n_n 2048 rfl rfl).symm k) = ix2 r k := funext fun ax => Fin.ext (by
    match ax with
    | ⟨0, _⟩ => exact lhs_o_0 _ _
    | ⟨1, _⟩ => exact (lhs_o_1 _ _).trans hk)
  have er : dot_S512x2048_S2048x160_S512x160_1_0_0_1_n_n.rhsIdx (ix2 r c) ((ValueIdx.contrEquiv1 dot_S512x2048_S2048x160_S512x160_1_0_0_1_n_n 2048 rfl rfl).symm k) = ix2 k c := funext fun ax => Fin.ext (by
    match ax with
    | ⟨0, _⟩ => exact (rhs_o_0 _ _).trans hk
    | ⟨1, _⟩ => exact rhs_o_1 _ _)
  rw [el, er]

end Cert.KernelIdeal.Products

end
-- ==== Proof.LibColumn.lean ====
/-
  Two layout facts about a column kept as a trailing unit axis (`keepdims`): a vector `[a]` cast to a
  column `[a, 1]` reads, at `(i, u)`, the vector at `i`; a column `[a, 1]` broadcast along its unit axis to
  `[a, b]` reads, at `(i, j)`, the column at `(i, 0)`.  Together: a per-row quantity spread over the row.
-/
import Idealize.ShloMosaic.Lib.Pipeline.Value
import Idealize.ShloMosaic.Lib.ValueIdx

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(i, j)`, the operand's one entry of row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.Column
-- ==== Proof.Spec.lean ====
/-
  The function both programs compute, written once over plain index functions.

  A row of a linear layer is `(∑ d, a d * W d e) + b e`.  A row of single-head cross-attention with a
  residual takes a query row `q`, the key and value rows `K j`, `V j` of one batch element and the
  residual row `xr`:  scores `s j = ∑ d, q d * K j d`; their maximum `M` as the fold of `max` from the
  pattern of minus infinity; the unnormalised weights `exp (s j - M)`; their sum `L`; and the result
  `(∑ j, (exp (s j - M) / L) * V j e) + xr e`.  All sums are finite sums in the extended reals, the
  quotient is the ideal instance's division, and nothing is rearranged: the two programs differ only in
  how they tile these sums, which an exact sum does not see.
-/
import Idealize.ShloMosaic.PureOps.Ideal
import Idealize.ShloMosaic.PureOps.Ideal.Laws
import Idealize.ShloMosaic.Lib.ValueIdx
import Mathlib.Data.Finset.Fold

noncomputable section

namespace Cert.CrossAttn

open Idealize.ShloMosaic Idealize.ShloMosaic.ValueIdx

/-- One row of a linear layer: the row `a` against the columns of `W`, plus the bias. -/
def lin (a : Fin 160 → EReal) (W : Fin 160 → Fin 160 → EReal) (b : Fin 160 → EReal) (e : Fin 160) : EReal :=
  (∑ d : Fin 160, a d * W d e) + b e

/-- The value the row maximum is folded from: the f32 pattern of minus infinity. -/
def negInf : EReal := Ideal.ofBits .f32 0xFF800000#32

/-- The scores of one query row against every key row. -/
def scores (q : Fin 160 → EReal) (K : Fin 2048 → Fin 160 → EReal) (j : Fin 2048) : EReal :=
  ∑ d : Fin 160, q d * K j d

/-- The maximum of a row of scores, as a fold of `max` over the key axis. -/
def rowMax (s : Fin 2048 → EReal) : EReal := (Finset.univ : Finset (Fin 2048)).fold max negInf s

/-- The unnormalised softmax weights of a row of scores. -/
def weight (s : Fin 2048 → EReal) (j : Fin 2048) : EReal := Ideal.exp (s j - rowMax s)

/-- One output row: the softmax-weighted sum of the value rows, plus the residual row. -/
def attnRow (q : Fin 160 → EReal) (K V : Fin 2048 → Fin 160 → EReal) (xr : Fin 160 → EReal) (e : Fin 160) : EReal :=
  (∑ j : Fin 2048, Ideal.div (weight (scores q K) j) (∑ j' : Fin 2048, weight (scores q K) j') * V j e) + xr e

/-- Folding `max` from `b` and then taking the maximum with `b` once more changes nothing: `b` is below the fold. -/
theorem max_fold_max_self {ι : Type} (s : Finset ι) (b : EReal) (f : ι → EReal) :
    max b (s.fold max b f) = s.fold max b f :=
  max_eq_right ((Finset.le_fold_max b).mpr (Or.inl le_rfl))

abbrev A3 : Shape := ⟨3, ![16, 2048, 160]⟩
abbrev M2 : Shape := ⟨2, ![160, 160]⟩
abbrev B1 : Shape := ⟨1, ![160]⟩

/-- The projected rows of an array `a : [16, 2048, 160]` through `W : [160, 160]` and `b : [160]`: entry
    `(n, j, e)` of `a · W + b`. -/
def proj (a : A3.Idx → EReal) (W : M2.Idx → EReal) (b : B1.Idx → EReal) (n : Fin 16) (j : Fin 2048) (e : Fin 160) : EReal :=
  lin (fun d => a (ix3 n j d)) (fun d e' => W (ix2 d e')) (fun e' => b (ix1 e')) e

/-- Entry `(n, i, e)` of the result: row `i` of batch element `n` attends over that element's keys and values. -/
def outAt (x y : A3.Idx → EReal) (Wq : M2.Idx → EReal) (bq : B1.Idx → EReal) (Wk : M2.Idx → EReal) (bk : B1.Idx → EReal)
    (Wv : M2.Idx → EReal) (bv : B1.Idx → EReal) (n : Fin 16) (i : Fin 2048) (e : Fin 160) : EReal :=
  attnRow (proj x Wq bq n i) (proj y Wk bk n) (proj y Wv bv n) (fun d => x (ix3 n i d)) e

/-- The result array. -/
def out (x y : A3.Idx → EReal) (Wq : M2.Idx → EReal) (bq : B1.Idx → EReal) (Wk : M2.Idx → EReal) (bk : B1.Idx → EReal)
    (Wv : M2.Idx → EReal) (bv : B1.Idx → EReal) : A3.Idx → EReal :=
  fun i => outAt x y Wq bq Wk bk Wv bv (i 0) (i 1) (i 2)

theorem out_ix3 (x y : A3.Idx → EReal) (Wq : M2.Idx → EReal) (bq : B1.Idx → EReal) (Wk : M2.Idx → EReal) (bk : B1.Idx → EReal)
    (Wv : M2.Idx → EReal) (bv : B1.Idx → EReal) (n : Fin 16) (i : Fin 2048) (e : Fin 160) :
    out x y Wq bq Wk bk Wv bv (ix3 n i e) = outAt x y Wq bq Wk bk Wv bv n i e := rfl

end Cert.CrossAttn

end
-- ==== Proof.KPayload.lean ====
/-
  What the two kernel bodies store, read at an index of the stored block at the ideal values.

  The projection body stores, for a block of 512 rows of `y`, the rows times a weight matrix plus a bias row: entry
  `(r, e)` is `lin` of row `r` of the block.  The attention body projects its block of 512 rows of `x` to queries the
  same way, takes their scores against all 2048 key rows of the batch element, subtracts each row's maximum, exponentiates,
  divides by the row's sum, multiplies into the value rows and adds the block of `x` back: entry `(r, e)` is `attnRow` of
  the query row, the key and value rows, and row `r` of the block.  A row maximum or row sum kept as a column and
  broadcast back along the row is that row's value at every entry of the row.
-/
import proofs.«131270_g83305185673742_cont_9to1c4b_147_2_alg».proof.Proof.Gen.KernelIdeal.Skeleton
import proofs.«131270_g83305185673742_cont_9to1c4b_147_2_alg».proof.Proof.KMatmul
import proofs.«131270_g83305185673742_cont_9to1c4b_147_2_alg».proof.Proof.LibColumn
import proofs.«131270_g83305185673742_cont_9to1c4b_147_2_alg».proof.Proof.Spec
import Idealize.ShloMosaic.Lib.ValueLayout
import Idealize.ShloMosaic.PureOps.Ideal.Laws

noncomputable section

namespace Cert.KernelIdeal.Payload

open Cert.KernelIdeal Cert.KernelIdeal.Gen Cert.KernelIdeal.Products Cert.CrossAttn Cert.Column
open Idealize.ShloMosaic Idealize.ShloMosaic.ValueIdx

/-! ## Reductions along a row, and a per-row value spread back over the row -/

/-- The sum of a block of scores along the key axis, at row `r`: the sum over the row's entries. -/
theorem row_sum_apply (v : FVec Ideal S512x2048 .f32) (r : Fin 512) :
    multiReduction .add [1] S512 v 0x00000000#32 reduces_S512x2048_S512 (.inl rfl) rfl (ix1 r) = ∑ j : Fin 2048, v (ix2 r j) :=
  (Ideal.multiReduction_add_single v 0x00000000#32 reduces_S512x2048_S512 (.inl rfl) rfl (ix1 r)).trans
    (Finset.sum_congr rfl fun (k : Fin 2048) _ => congrArg v (funext fun a => Fin.ext (by
      match a with
      | ⟨0, _⟩ => rfl
      | ⟨1, _⟩ => rfl)))

/-- The maximum of a block of scores along the key axis, at row `r`: the fold of `max` over the row's entries. -/
theorem row_max_apply (v : FVec Ideal S512x2048 .f32) (r : Fin 512) :
    multiReduction .maximumf [1] S512 v 0xFF800000#32 reduces_S512x2048_S512 (.inl rfl) rfl (ix1 r) = rowMax (fun j => v (ix2 r j)) :=
  (Ideal.multiReduction_maximumf_single v 0xFF800000#32 reduces_S512x2048_S512 (.inl rfl) rfl (ix1 r)).trans
    (congrArg (fun f : Fin 2048 → EReal => (Finset.univ : Finset (Fin 2048)).fold max negInf f)
      (funext fun (k : Fin 2048) => congrArg v (funext fun a => Fin.ext (by
        match a with
        | ⟨0, _⟩ => rfl
        | ⟨1, _⟩ => rfl))))

/-- A per-row value, cast to a column and broadcast along the row, is that value at every entry of the row. -/
theorem spread_apply (v : FVec Ideal S512 .f32) (r : Fin 512) (j : Fin 2048) :
    broadcastTo S512x2048 (shapeCast S512x1 v shapeCasts_S512_S512x1) broadcasts_S512x1_S512x2048 (ix2 r j) = v (ix1 r) :=
  (broadcastTo_a1_ab_apply _ broadcasts_S512x1_S512x2048 r j).trans (shapeCast_a_a1_apply v shapeCasts_S512_S512x1 r 0)

/-- A bias kept as one row, broadcast down the rows, is the bias at the entry's column. -/
theorem bias_apply (x2 : FVec Ideal S1x160 .f32) (r : Fin 512) (e : Fin 160) :
    broadcastTo S512x160 (shapeCast S1x160 x2 shapeCasts_S1x160_S1x160) broadcasts_S1x160_S512x160 (ix2 r e) = x2 (ix2 (0 : Fin 1) e) :=
  (broadcastTo_1b_ab_apply _ broadcasts_S1x160_S512x160 r e).trans (congrFun (shapeCast_self x2 shapeCasts_S1x160_S1x160) _)

/-! ## A block through a linear layer -/

/-- Entry `(r, e)` of a block of rows times a weight matrix plus the bias row: `lin` of row `r`. -/
theorem linear_apply (x0 : FVec Ideal S1x512x160 .f32) (x1 : FVec Ideal S160x160 .f32) (x2 : FVec Ideal S1x160 .f32) (r : Fin 512) (e : Fin 160) :
    (addf (matmul dot_S512x160_S160x160_S512x160_1_0_0_1_n_n none (shapeCast S512x160 x0 shapeCasts_S1x512x160_S512x160) x1 (constant (F := Ideal) S512x160 .f32 0x00000000#32))
        (broadcastTo S512x160 (shapeCast S1x160 x2 shapeCasts_S1x160_S1x160) broadcasts_S1x160_S512x160)) (ix2 r e)
      = lin (fun d => x0 (ix3 (0 : Fin 1) r d)) (fun d e' => x1 (ix2 d e')) (fun e' => x2 (ix2 (0 : Fin 1) e')) e :=
  (addf_apply _ _ _).trans (congrArg₂ (· + ·)
    ((rows_weight_apply _ x1 r e).trans (Finset.sum_congr rfl fun d _ =>
      congrArg (· * x1 (ix2 d e)) (shapeCast_1ab_ab_apply x0 shapeCasts_S1x512x160_S512x160 r d)))
    (bias_apply x2 r e))

/-- The key projection's stored block. -/
theorem key_block_apply (x0 : FVec Ideal S1x512x160 .f32) (x1 : FVec Ideal S160x160 .f32) (x2 : FVec Ideal S1x160 .f32) (u : Fin 1) (r : Fin 512) (e : Fin 160) :
    k0_pay2 (F := Ideal) x0 x1 x2 (ix3 u r e) = lin (fun d => x0 (ix3 (0 : Fin 1) r d)) (fun d e' => x1 (ix2 d e')) (fun e' => x2 (ix2 (0 : Fin 1) e')) e := by
  unfold k0_pay2 k0_pay1
  dsimp only
  exact (shapeCast_ab_1ab_apply _ shapeCasts_S512x160_S1x512x160 u r e).trans (linear_apply x0 x1 x2 r e)

/-- The value projection's stored block: the same layer with the other weights. -/
theorem value_block_apply (x0 : FVec Ideal S1x512x160 .f32) (x1 : FVec Ideal S160x160 .f32) (x2 : FVec Ideal S1x160 .f32) (u : Fin 1) (r : Fin 512) (e : Fin 160) :
    k0_pay3 (F := Ideal) x0 x1 x2 (ix3 u r e) = lin (fun d => x0 (ix3 (0 : Fin 1) r d)) (fun d e' => x1 (ix2 d e')) (fun e' => x2 (ix2 (0 : Fin 1) e')) e := by
  unfold k0_pay3 k0_pay1
  dsimp only
  exact (shapeCast_ab_1ab_apply _ shapeCasts_S512x160_S1x512x160 u r e).trans (linear_apply x0 x1 x2 r e)

/-! ## The attention body -/

/-- Entry `(r, j)` of the block of scores: the projected query row `r` against key row `j`. -/
theorem scores_block_apply (x0 : FVec Ideal S1x512x160 .f32) (x1 : FVec Ideal S160x160 .f32) (x2 : FVec Ideal S1x160 .f32)
    (x3 : FVec Ideal S1x2048x160 .f32) (r : Fin 512) (j : Fin 2048) :
    matmul dot_S512x160_S2048x160_S512x2048_1_1_0_0_n_n none (addf (matmul dot_S512x160_S160x160_S512x160_1_0_0_1_n_n none (shapeCast S512x160 x0 shapeCasts_S1x512x160_S512x160) x1 (constant (F := Ideal) S512x160 .f32 0x00000000#32))
        (broadcastTo S512x160 (shapeCast S1x160 x2 shapeCasts_S1x160_S1x160) broadcasts_S1x160_S512x160))
        (shapeCast S2048x160 x3 shapeCasts_S1x2048x160_S2048x160) (constant (F := Ideal) S512x2048 .f32 0x00000000#32) (ix2 r j)
      = scores (lin (fun d => x0 (ix3 (0 : Fin 1) r d)) (fun d e' => x1 (ix2 d e')) (fun e' => x2 (ix2 (0 : Fin 1) e'))) (fun j' d => x3 (ix3 (0 : Fin 1) j' d)) j :=
  (query_key_apply _ _ r j).trans (Finset.sum_congr rfl fun d _ =>
    congrArg₂ (· * ·) (linear_apply x0 x1 x2 r d) (shapeCast_1ab_ab_apply x3 shapeCasts_S1x2048x160_S2048x160 j d))

/-- The unnormalised weights of a block of scores: each entry less its row's maximum, exponentiated. -/
theorem weight_block_apply (s : FVec Ideal S512x2048 .f32) (r : Fin 512) (j : Fin 2048) :
    exp (subf s (broadcastTo S512x2048 (shapeCast S512x1 (multiReduction .maximumf [1] S512 s 0xFF800000#32 reduces_S512x2048_S512 (.inl rfl) rfl)
        shapeCasts_S512_S512x1) broadcasts_S512x1_S512x2048)) (ix2 r j)
      = weight (fun j' => s (ix2 r j')) j :=
  congrArg (fun z => Ideal.exp (s (ix2 r j) - z)) ((spread_apply _ r j).trans (row_max_apply s r))

/-- The attention body's stored block: entry `(r, e)` is the attention row of block row `r`. -/
theorem attn_block_apply (x0 : FVec Ideal S1x512x160 .f32) (x1 : FVec Ideal S160x160 .f32) (x2 : FVec Ideal S1x160 .f32)
    (x3 x4 : FVec Ideal S1x2048x160 .f32) (u : Fin 1) (r : Fin 512) (e : Fin 160) :
    k1_pay1 (F := Ideal) x0 x1 x2 x3 x4 (ix3 u r e)
      = attnRow (lin (fun d => x0 (ix3 (0 : Fin 1) r d)) (fun d e' => x1 (ix2 d e')) (fun e' => x2 (ix2 (0 : Fin 1) e'))) (fun j d => x3 (ix3 (0 : Fin 1) j d)) (fun j d => x4 (ix3 (0 : Fin 1) j d))
          (fun d => x0 (ix3 (0 : Fin 1) r d)) e := by
  have hw : ∀ j : Fin 2048, _ = weight (scores (lin (fun d => x0 (ix3 (0 : Fin 1) r d)) (fun d e' => x1 (ix2 d e')) (fun e' => x2 (ix2 (0 : Fin 1) e'))) (fun j' d => x3 (ix3 (0 : Fin 1) j' d))) j := fun j =>
    (weight_block_apply (matmul dot_S512x160_S2048x160_S512x2048_1_1_0_0_n_n none (addf (matmul dot_S512x160_S160x160_S512x160_1_0_0_1_n_n none (shapeCast S512x160 x0 shapeCasts_S1x512x160_S512x160) x1 (constant (F := Ideal) S512x160 .f32 0x00000000#32))
        (broadcastTo S512x160 (shapeCast S1x160 x2 shapeCasts_S1x160_S1x160) broadcasts_S1x160_S512x160))
        (shapeCast S2048x160 x3 shapeCasts_S1x2048x160_S2048x160) (constant (F := Ideal) S512x2048 .f32 0x00000000#32)) r j).trans
      (congrArg (fun s => weight s j) (funext fun j' => scores_block_apply x0 x1 x2 x3 r j'))
  unfold k1_pay1
  dsimp only
  refine (shapeCast_ab_1ab_apply _ shapeCasts_S512x160_S1x512x160 u r e).trans ?_
  refine (addf_apply _ _ _).trans ?_
  refine congrArg₂ (· + ·) ?_ (shapeCast_1ab_ab_apply x0 shapeCasts_S1x512x160_S512x160 r e)
  refine (weight_value_apply _ _ r e).trans ?_
  refine Finset.sum_congr rfl fun j _ => ?_
  refine congrArg₂ (· * ·) ?_ (shapeCast_1ab_ab_apply x4 shapeCasts_S1x2048x160_S2048x160 j e)
  refine (divf_apply _ _ _).trans ?_
  exact congrArg₂ Ideal.div (hw j)
    ((spread_apply _ r j).trans ((row_sum_apply _ r).trans (Finset.sum_congr rfl fun j' _ => hw j')))

end Cert.KernelIdeal.Payload

end
-- ==== Proof.KRegion0.lean ====
/-
  What the key/value projection region leaves in its two output arrays, as one function of the arrays it reads.

  The region's grid point `t` = (batch element, block of 512 rows) fetches rows `[512 * block, 512 * block + 512)` of that
  batch element of `y`, the whole weight matrices and bias rows, and writes the same rows of `k` and of `v`.  So what point `t`
  writes back is block `t` of the row-wise linear layer of the whole array; the blocks tile the output; hence each output
  array ends as that linear layer of the region's input arrays as the region found them.
-/
import proofs.«131270_g83305185673742_cont_9to1c4b_147_2_alg».proof.Proof.Gen.KernelIdeal.Frame
import proofs.«131270_g83305185673742_cont_9to1c4b_147_2_alg».proof.Proof.KPayload
import Idealize.ShloMosaic.Lib.Pipeline.Value

set_option maxRecDepth 16384

noncomputable section

namespace Cert.KernelIdeal.Region0

open Cert.KernelIdeal Cert.KernelIdeal.Gen Cert.KernelIdeal.Payload Cert.CrossAttn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The row-wise linear layer of an array `[16, 2048, 160]` through a weight matrix `[160, 160]` and a bias row `[1, 160]`. -/
def linArr (A : S16x2048x160.Idx → EReal) (W : S160x160.Idx → EReal) (B : S1x160.Idx → EReal) : S16x2048x160.Idx → EReal :=
  fun i => lin (fun d => A (ix3 (i 0) (i 1) d)) (fun d e' => W (ix2 d e')) (fun e' => B (ix2 (0 : Fin 1) e')) (i 2)

/-- The printed index maps, decided over the grid: the block of `y` moves with the output blocks, the weights and biases
    stay at block zero, and the output's block indices stay in range. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 3) = win0_5.index t (0 : Fin 3) ∧ win0_6.index t (1 : Fin 3) = win0_5.index t (1 : Fin 3)
    ∧ win0_6.index t (2 : Fin 3) = 0
    ∧ win0_5.index t (0 : Fin 3) ≤ 15 ∧ win0_5.index t (1 : Fin 3) ≤ 3 :=
  (by decide +kernel : ∀ t : Fin grid0.N, _)

/-- Every block of either output is some point's. -/
theorem idx_onto : ∀ (q0 : Fin 16) (q1 : Fin 4), ∃ t : Fin cfg0.N, win0_5.index t = ![q0.val, q1.val, 0] ∧ win0_6.index t = ![q0.val, q1.val, 0] :=
  (by decide +kernel : ∀ (q0 : Fin 16) (q1 : Fin 4), ∃ t : Fin grid0.N, win0_5.index t = ![q0.val, q1.val, 0] ∧ win0_6.index t = ![q0.val, q1.val, 0])

/-- One entry of a stored block, from where its inputs' entries sit in the whole arrays. -/
theorem key_point (x0 : FVec Ideal S1x512x160 .f32) (x1 : FVec Ideal S160x160 .f32) (x2 : FVec Ideal S1x160 .f32)
    (A : S16x2048x160.Idx → EReal) (W : S160x160.Idx → EReal) (B : S1x160.Idx → EReal)
    (u : Fin 1) (r : Fin 512) (e : Fin 160) (n : Fin 16) (row : Fin 2048)
    (hA : ∀ d : Fin 160, x0 (ix3 (0 : Fin 1) r d) = A (ix3 n row d)) (hW : ∀ (d e' : Fin 160), x1 (ix2 d e') = W (ix2 d e'))
    (hB : ∀ e' : Fin 160, x2 (ix2 (0 : Fin 1) e') = B (ix2 (0 : Fin 1) e')) :
    k0_pay2 (F := Ideal) x0 x1 x2 (ix3 u r e) = lin (fun d => A (ix3 n row d)) (fun d e' => W (ix2 d e')) (fun e' => B (ix2 (0 : Fin 1) e')) e :=
  (key_block_apply x0 x1 x2 u r e).trans (by rw [funext hA, funext fun d => funext (hW d), funext hB])

theorem value_point (x0 : FVec Ideal S1x512x160 .f32) (x1 : FVec Ideal S160x160 .f32) (x2 : FVec Ideal S1x160 .f32)
    (A : S16x2048x160.Idx → EReal) (W : S160x160.Idx → EReal) (B : S1x160.Idx → EReal)
    (u : Fin 1) (r : Fin 512) (e : Fin 160) (n : Fin 16) (row : Fin 2048)
    (hA : ∀ d : Fin 160, x0 (ix3 (0 : Fin 1) r d) = A (ix3 n row d)) (hW : ∀ (d e' : Fin 160), x1 (ix2 d e') = W (ix2 d e'))
    (hB : ∀ e' : Fin 160, x2 (ix2 (0 : Fin 1) e') = B (ix2 (0 : Fin 1) e')) :
    k0_pay3 (F := Ideal) x0 x1 x2 (ix3 u r e) = lin (fun d => A (ix3 n row d)) (fun d e' => W (ix2 d e')) (fun e' => B (ix2 (0 : Fin 1) e')) e :=
  (value_block_apply x0 x1 x2 u r e).trans (by rw [funext hA, funext fun d => funext (hW d), funext hB])

/-- WHAT POINT `t` WRITES BACK to the key array is block `t` of the linear layer of `y` through the key weights. -/
theorem flushed5_eq (c : Dev nD) (t : Fin cfg0.N) :
    (dat0 V c).flushed 5 t = ((cfg0.win 5).blk t).view.read (Elt Ideal) (linArr (V c main_arg1) (V c main_arg4) (V c main_v1)) := by
  show (cfg0.win 5).cut (grid0.coords t) ((dat0 V c).after 5 t) = _
  rw [after0_5]
  unfold out0_5
  rw [View.canon_unit_zero hz3]
  simp only [View.ld_unit_zero (S := S1x512x160) hz3, View.ld_unit_zero (S := S160x160) hz2, View.ld_unit_zero (S := S1x160) hz2]
  obtain ⟨e0, e1, e2, e3, e4, e5, e6, e7, e8, e9, e10, e11, e12, e13, e14, b0, b1⟩ := idx_facts t
  funext j
  obtain ⟨u, r, e, rfl⟩ : ∃ (u : Fin 1) (r : Fin 512) (e : Fin 160), j = ix3 u r e := ⟨j 0, j 1, j 2, eq_ix3 j⟩
  have hu : u.val = 0 := by have := u.isLt; omega
  show k0_pay2 (F := Ideal) (iblk0 V c 0 t) (iblk0 V c 1 t) (iblk0 V c 2 t) (ix3 u r e)
    = linArr (V c main_arg1) (V c main_arg4) (V c main_v1) (((cfg0.win 5).blk t).view.emb (ix3 u r e))
  refine (key_point (iblk0 V c 0 t) (iblk0 V c 1 t) (iblk0 V c 2 t) (V c main_arg1) (V c main_arg4) (V c main_v1) u r e
    ((((cfg0.win 5).blk t).view.emb (ix3 u r e)) 0) ((((cfg0.win 5).blk t).view.emb (ix3 u r e)) 1) ?_ ?_ ?_).trans ?_
  · intro d
    show V c main_arg1 (((cfg0.win 0).blk t).view.emb (ix3 (0 : Fin 1) r d)) = _
    refine congrArg (V c main_arg1) (funext fun a => Fin.ext ?_)
    match a with
    | ⟨0, _⟩ => show win0_0.index t (0 : Fin 3) * 1 + 1 * 0 = win0_5.index t (0 : Fin 3) * 1 + 1 * u.val; omega
    | ⟨1, _⟩ => show win0_0.index t (1 : Fin 3) * 512 + 1 * r.val = win0_5.index t (1 : Fin 3) * 512 + 1 * r.val; omega
    | ⟨2, _⟩ => show win0_0.index t (2 : Fin 3) * 160 + 1 * d.val = d.val; omega
  · intro d e'
    show V c main_arg4 (((cfg0.win 1).blk t).view.emb (ix2 d e')) = _
    refine congrArg (V c main_arg4) (funext fun a => Fin.ext ?_)
    match a with
    | ⟨0, _⟩ => show win0_1.index t (0 : Fin 2) * 160 + 1 * d.val = d.val; omega
    | ⟨1, _⟩ => show win0_1.index t (1 : Fin 2) * 160 + 1 * e'.val = e'.val; omega
  · intro e'
    show V c main_v1 (((cfg0.win 2).blk t).view.emb (ix2 (0 : Fin 1) e')) = _
    refine congrArg (V c main_v1) (funext fun a => Fin.ext ?_)
    match a with
    | ⟨0, _⟩ => show win0_2.index t (0 : Fin 2) * 1 + 1 * 0 = 0; omega
    | ⟨1, _⟩ => show win0_2.index t (1 : Fin 2) * 160 + 1 * e'.val = e'.val; omega
  · unfold linArr
    refine congrArg (lin _ _ _) (Fin.ext ?_)
    show e.val = win0_5.index t (2 : Fin 3) * 160 + 1 * e.val
    omega

/-- WHAT POINT `t` WRITES BACK to the value array is block `t` of the linear layer of `y` through the value weights. -/
theorem flushed6_eq (c : Dev nD) (t : Fin cfg0.N) :
    (dat0 V c).flushed 6 t = ((cfg0.win 6).blk t).view.read (Elt Ideal) (linArr (V c main_arg1) (V c main_arg6) (V c main_v2)) := by
  show (cfg0.win 6).cut (grid0.coords t) ((dat0 V c).after 6 t) = _
  rw [after0_6]
  unfold out0_6
  rw [View.canon_unit_zero hz3]
  simp only [View.ld_unit_zero (S := S1x512x160) hz3, View.ld_unit_zero (S := S160x160) hz2, View.ld_unit_zero (S := S1x160) hz2]
  obtain ⟨e0, e1, e2, e3, e4, e5, e6, e7, e8, e9, e10, e11, e12, e13, e14, b0, b1⟩ := idx_facts t
  funext j
  obtain ⟨u, r, e, rfl⟩ : ∃ (u : Fin 1) (r : Fin 512) (e : Fin 160), j = ix3 u r e := ⟨j 0, j 1, j 2, eq_ix3 j⟩
  have hu : u.val = 0 := by have := u.isLt; omega
  show k0_pay3 (F := Ideal) (iblk0 V c 0 t) (iblk0 V c 3 t) (iblk0 V c 4 t) (ix3 u r e)
    = linArr (V c main_arg1) (V c main_arg6) (V c main_v2) (((cfg0.win 6).blk t).view.emb (ix3 u r e))
  refine (value_point (iblk0 V c 0 t) (iblk0 V c 3 t) (iblk0 V c 4 t) (V c main_arg1) (V c main_arg6) (V c main_v2) u r e
    ((((cfg0.win 6).blk t).view.emb (ix3 u r e)) 0) ((((cfg0.win 6).blk t).view.emb (ix3 u r e)) 1) ?_ ?_ ?_).trans ?_
  · intro d
    show V c main_arg1 (((cfg0.win 0).blk t).view.emb (ix3 (0 : Fin 1) r d)) = _
    refine congrArg (V c main_arg1) (funext fun a => Fin.ext ?_)
    match a with
    | ⟨0, _⟩ => show win0_0.index t (0 : Fin 3) * 1 + 1 * 0 = win0_6.index t (0 : Fin 3) * 1 + 1 * u.val; omega
    | ⟨1, _⟩ => show win0_0.index t (1 : Fin 3) * 512 + 1 * r.val = win0_6.index t (1 : Fin 3) * 512 + 1 * r.val; omega
    | ⟨2, _⟩ => show win0_0.index t (2 : Fin 3) * 160 + 1 * d.val = d.val; omega
  · intro d e'
    show V c main_arg6 (((cfg0.win 3).blk t).view.emb (ix2 d e')) = _
    refine congrArg (V c main_arg6) (funext fun a => Fin.ext ?_)
    match a with
    | ⟨0, _⟩ => show win0_3.index t (0 : Fin 2) * 160 + 1 * d.val = d.val; omega
    | ⟨1, _⟩ => show win0_3.index t (1 : Fin 2) * 160 + 1 * e'.val = e'.val; omega
  · intro e'
    show V c main_v2 (((cfg0.win 4).blk t).view.emb (ix2 (0 : Fin 1) e')) = _
    refine congrArg (V c main_v2) (funext fun a => Fin.ext ?_)
    match a with
    | ⟨0, _⟩ => show win0_4.index t (0 : Fin 2) * 1 + 1 * 0 = 0; omega
    | ⟨1, _⟩ => show win0_4.index t (1 : Fin 2) * 160 + 1 * e'.val = e'.val; omega
  · unfold linArr
    refine congrArg (lin _ _ _) (Fin.ext ?_)
    show e.val = win0_6.index t (2 : Fin 3) * 160 + 1 * e.val
    omega

/-- An index of the key array is in point `t`'s block iff each coordinate is in the block's range on its axis. -/
theorem mem_blk5 (t : Fin cfg0.N) (i : S16x2048x160.Idx) :
    i ∈ ((cfg0.win 5).blk t).view.set ↔ ∀ a : Fin 3, win0_5.index t a * S1x512x160.size a ≤ (i a).val ∧ (i a).val < win0_5.index t a * S1x512x160.size a + S1x512x160.size a := by
  show i ∈ ((View.whole main_v3_0).slice (win0_5.rect t)).set ↔ _
  rw [View.set_slice_whole, Rect.mem_set_unit]
  exact Iff.rfl

theorem mem_blk6 (t : Fin cfg0.N) (i : S16x2048x160.Idx) :
    i ∈ ((cfg0.win 6).blk t).view.set ↔ ∀ a : Fin 3, win0_6.index t a * S1x512x160.size a ≤ (i a).val ∧ (i a).val < win0_6.index t a * S1x512x160.size a + S1x512x160.size a := by
  show i ∈ ((View.whole main_v3_1).slice (win0_6.rect t)).set ↔ _
  rw [View.set_slice_whole, Rect.mem_set_unit]
  exact Iff.rfl

/-- The blocks tile the key array: row `r` of batch element `n` lies in the block of point (`n`, `r / 512`). -/
theorem cover5 (i : S16x2048x160.Idx) : ∃ t : Fin cfg0.N, (cfg0.win 5).flush t = true ∧ i ∈ ((cfg0.win 5).blk t).view.set := by
  have hi0 : (i 0).val < 16 := (i 0).isLt
  have hi1 : (i 1).val < 2048 := (i 1).isLt
  have hi2 : (i 2).val < 160 := (i 2).isLt
  obtain ⟨t, ht, -⟩ := idx_onto ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 512 ≤ (i 1).val ∧ (i 1).val < win0_5.index t (1 : Fin 3) * 512 + 512; omega
  | ⟨2, _⟩ => show win0_5.index t (2 : Fin 3) * 160 ≤ (i 2).val ∧ (i 2).val < win0_5.index t (2 : Fin 3) * 160 + 160; omega

theorem cover6 (i : S16x2048x160.Idx) : ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 160 := (i 2).isLt
  obtain ⟨t, -, ht⟩ := idx_onto ⟨(i 0).val, hi0⟩ ⟨(i 1).val / 512, by omega⟩
  have q0 : win0_6.index t (0 : Fin 3) = (i 0).val := congrFun ht 0
  have q1 : win0_6.index t (1 : Fin 3) = (i 1).val / 512 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 512 ≤ (i 1).val ∧ (i 1).val < win0_6.index t (1 : Fin 3) * 512 + 512; omega
  | ⟨2, _⟩ => show win0_6.index t (2 : Fin 3) * 160 ≤ (i 2).val ∧ (i 2).val < win0_6.index t (2 : Fin 3) * 160 + 160; omega

/-- THE KEY ARRAY after the region: the linear layer of `y` through the key weights and bias, as the region found them. -/
theorem keys_final (c : Dev nD) :
    (dat0 V c).arrAt 5 cfg0.N = linArr (V c main_arg1) (V c main_arg4) (V c main_v1) :=
  (dat0 V c).arrAt_eq_of_cover 5 _ (fun t _ => flushed5_eq V c t) cover5

/-- THE VALUE ARRAY after the region: the linear layer of `y` through the value weights and bias. -/
theorem values_final (c : Dev nD) :
    (dat0 V c).arrAt 6 cfg0.N = linArr (V c main_arg1) (V c main_arg6) (V c main_v2) :=
  (dat0 V c).arrAt_eq_of_cover 6 _ (fun t _ => flushed6_eq V c t) cover6

end Cert.KernelIdeal.Region0

end
-- ==== Proof.KRegion1.lean ====
/-
  What the attention region leaves in its output array, as one function of the arrays it reads.

  Grid point `t` = (batch element, block of 512 query rows) fetches those rows of `x`, the whole query weights and bias row,
  and ALL 2048 key rows and value rows of the batch element, and writes the same 512 rows of the output.  What it writes is
  block `t` of the row-wise attention of the whole arrays; the blocks tile the output; so the output array ends as that
  function of the region's input arrays as the region found them.
-/
import proofs.«131270_g83305185673742_cont_9to1c4b_147_2_alg».proof.Proof.Gen.KernelIdeal.Frame
import proofs.«131270_g83305185673742_cont_9to1c4b_147_2_alg».proof.Proof.KPayload
import Idealize.ShloMosaic.Lib.Pipeline.Value

set_option maxRecDepth 16384

noncomputable section

namespace Cert.KernelIdeal.Region1

open Cert.KernelIdeal Cert.KernelIdeal.Gen Cert.KernelIdeal.Payload Cert.CrossAttn
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- Row-wise attention of `X : [16, 2048, 160]` (projected to queries through `W`, `B`) over the key rows `K` and value rows
    `Vv` of the same batch element, plus `X`. -/
def attnArr (X : S16x2048x160.Idx → EReal) (W : S160x160.Idx → EReal) (B : S1x160.Idx → EReal)
    (K Vv : S16x2048x160.Idx → EReal) : S16x2048x160.Idx → EReal :=
  fun i => attnRow (lin (fun d => X (ix3 (i 0) (i 1) d)) (fun d e' => W (ix2 d e')) (fun e' => B (ix2 (0 : Fin 1) e')))
    (fun j d => K (ix3 (i 0) j d)) (fun j d => Vv (ix3 (i 0) j d)) (fun d => X (ix3 (i 0) (i 1) d)) (i 2)

/-- The printed index maps, decided over the grid. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0 ∧ win1_5.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_5.index t (0 : Fin 3) ∧ win1_3.index t (1 : Fin 3) = 0 ∧ win1_3.index t (2 : Fin 3) = 0
    ∧ win1_4.index t (0 : Fin 3) = win1_5.index t (0 : Fin 3) ∧ win1_4.index t (1 : Fin 3) = 0 ∧ win1_4.index t (2 : Fin 3) = 0
    ∧ win1_5.index t (0 : Fin 3) ≤ 15 ∧ win1_5.index t (1 : Fin 3) ≤ 3 :=
  (by decide +kernel : ∀ t : Fin grid1.N, _)

/-- Every block of the output is some point's. -/
theorem idx_onto : ∀ (q0 : Fin 16) (q1 : Fin 4), ∃ t : Fin cfg1.N, win1_5.index t = ![q0.val, q1.val, 0] :=
  (by decide +kernel : ∀ (q0 : Fin 16) (q1 : Fin 4), ∃ t : Fin grid1.N, win1_5.index t = ![q0.val, q1.val, 0])

/-- One entry of the stored block, from where its inputs' entries sit in the whole arrays. -/
theorem attn_point (x0 : FVec Ideal S1x512x160 .f32) (x1 : FVec Ideal S160x160 .f32) (x2 : FVec Ideal S1x160 .f32)
    (x3 x4 : FVec Ideal S1x2048x160 .f32)
    (X : S16x2048x160.Idx → EReal) (W : S160x160.Idx → EReal) (B : S1x160.Idx → EReal) (K Vv : S16x2048x160.Idx → EReal)
    (u : Fin 1) (r : Fin 512) (e : Fin 160) (n : Fin 16) (row : Fin 2048)
    (hX : ∀ d : Fin 160, x0 (ix3 (0 : Fin 1) r d) = X (ix3 n row d)) (hW : ∀ (d e' : Fin 160), x1 (ix2 d e') = W (ix2 d e'))
    (hB : ∀ e' : Fin 160, x2 (ix2 (0 : Fin 1) e') = B (ix2 (0 : Fin 1) e'))
    (hK : ∀ (j : Fin 2048) (d : Fin 160), x3 (ix3 (0 : Fin 1) j d) = K (ix3 n j d))
    (hV : ∀ (j : Fin 2048) (d : Fin 160), x4 (ix3 (0 : Fin 1) j d) = Vv (ix3 n j d)) :
    k1_pay1 (F := Ideal) x0 x1 x2 x3 x4 (ix3 u r e)
      = attnRow (lin (fun d => X (ix3 n row d)) (fun d e' => W (ix2 d e')) (fun e' => B (ix2 (0 : Fin 1) e')))
          (fun j d => K (ix3 n j d)) (fun j d => Vv (ix3 n j d)) (fun d => X (ix3 n row d)) e :=
  (attn_block_apply x0 x1 x2 x3 x4 u r e).trans (by
    rw [funext hX, funext fun d => funext (hW d), funext hB, funext fun j => funext (hK j), funext fun j => funext (hV j)])

/-- WHAT POINT `t` WRITES BACK is block `t` of the row-wise attention of the whole arrays. -/
theorem flushed5_eq (c : Dev nD) (t : Fin cfg1.N) :
    (dat1 V c).flushed 5 t = ((cfg1.win 5).blk t).view.read (Elt Ideal)
      (attnArr (V c main_arg0) (V c main_arg2) (V c main_v0) (V c main_v3_0) (V c main_v3_1)) := by
  show (cfg1.win 5).cut (grid1.coords t) ((dat1 V c).after 5 t) = _
  rw [after1_5]
  unfold out1_5
  rw [View.canon_unit_zero hz3]
  simp only [View.ld_unit_zero (S := S1x512x160) hz3, View.ld_unit_zero (S := S160x160) hz2, View.ld_unit_zero (S := S1x160) hz2,
    View.ld_unit_zero (S := S1x2048x160) hz3]
  obtain ⟨e0, e1, e2, e3, e4, e5, e6, e7, e8, e9, e10, e11, e12, e13, b0, b1⟩ := idx_facts t
  funext j
  obtain ⟨u, r, e, rfl⟩ : ∃ (u : Fin 1) (r : Fin 512) (e : Fin 160), j = ix3 u r e := ⟨j 0, j 1, j 2, eq_ix3 j⟩
  have hu : u.val = 0 := by have := u.isLt; omega
  show k1_pay1 (F := Ideal) (iblk1 V c 0 t) (iblk1 V c 1 t) (iblk1 V c 2 t) (iblk1 V c 3 t) (iblk1 V c 4 t) (ix3 u r e)
    = attnArr (V c main_arg0) (V c main_arg2) (V c main_v0) (V c main_v3_0) (V c main_v3_1) (((cfg1.win 5).blk t).view.emb (ix3 u r e))
  refine (attn_point (iblk1 V c 0 t) (iblk1 V c 1 t) (iblk1 V c 2 t) (iblk1 V c 3 t) (iblk1 V c 4 t)
    (V c main_arg0) (V c main_arg2) (V c main_v0) (V c main_v3_0) (V c main_v3_1) u r e
    ((((cfg1.win 5).blk t).view.emb (ix3 u r e)) 0) ((((cfg1.win 5).blk t).view.emb (ix3 u r e)) 1) ?_ ?_ ?_ ?_ ?_).trans ?_
  · intro d
    show V c main_arg0 (((cfg1.win 0).blk t).view.emb (ix3 (0 : Fin 1) r d)) = _
    refine congrArg (V c main_arg0) (funext fun a => Fin.ext ?_)
    match a with
    | ⟨0, _⟩ => show win1_0.index t (0 : Fin 3) * 1 + 1 * 0 = win1_5.index t (0 : Fin 3) * 1 + 1 * u.val; omega
    | ⟨1, _⟩ => show win1_0.index t (1 : Fin 3) * 512 + 1 * r.val = win1_5.index t (1 : Fin 3) * 512 + 1 * r.val; omega
    | ⟨2, _⟩ => show win1_0.index t (2 : Fin 3) * 160 + 1 * d.val = d.val; omega
  · intro d e'
    show V c main_arg2 (((cfg1.win 1).blk t).view.emb (ix2 d e')) = _
    refine congrArg (V c main_arg2) (funext fun a => Fin.ext ?_)
    match a with
    | ⟨0, _⟩ => show win1_1.index t (0 : Fin 2) * 160 + 1 * d.val = d.val; omega
    | ⟨1, _⟩ => show win1_1.index t (1 : Fin 2) * 160 + 1 * e'.val = e'.val; omega
  · intro e'
    show V c main_v0 (((cfg1.win 2).blk t).view.emb (ix2 (0 : Fin 1) e')) = _
    refine congrArg (V c main_v0) (funext fun a => Fin.ext ?_)
    match a with
    | ⟨0, _⟩ => show win1_2.index t (0 : Fin 2) * 1 + 1 * 0 = 0; omega
    | ⟨1, _⟩ => show win1_2.index t (1 : Fin 2) * 160 + 1 * e'.val = e'.val; omega
  · intro j d
    show V c main_v3_0 (((cfg1.win 3).blk t).view.emb (ix3 (0 : Fin 1) j d)) = _
    refine congrArg (V c main_v3_0) (funext fun a => Fin.ext ?_)
    match a with
    | ⟨0, _⟩ => show win1_3.index t (0 : Fin 3) * 1 + 1 * 0 = win1_5.index t (0 : Fin 3) * 1 + 1 * u.val; omega
    | ⟨1, _⟩ => show win1_3.index t (1 : Fin 3) * 2048 + 1 * j.val = j.val; omega
    | ⟨2, _⟩ => show win1_3.index t (2 : Fin 3) * 160 + 1 * d.val = d.val; omega
  · intro j d
    show V c main_v3_1 (((cfg1.win 4).blk t).view.emb (ix3 (0 : Fin 1) j d)) = _
    refine congrArg (V c main_v3_1) (funext fun a => Fin.ext ?_)
    match a with
    | ⟨0, _⟩ => show win1_4.index t (0 : Fin 3) * 1 + 1 * 0 = win1_5.index t (0 : Fin 3) * 1 + 1 * u.val; omega
    | ⟨1, _⟩ => show win1_4.index t (1 : Fin 3) * 2048 + 1 * j.val = j.val; omega
    | ⟨2, _⟩ => show win1_4.index t (2 : Fin 3) * 160 + 1 * d.val = d.val; omega
  · unfold attnArr
    refine congrArg (attnRow _ _ _ _) (Fin.ext ?_)
    show e.val = win1_5.index t (2 : Fin 3) * 160 + 1 * e.val
    omega

/-- An index of the output array is in point `t`'s block iff each coordinate is in the block's range on its axis. -/
theorem mem_blk5 (t : Fin cfg1.N) (i : S16x2048x160.Idx) :
    i ∈ ((cfg1.win 5).blk t).view.set ↔ ∀ a : Fin 3, win1_5.index t a * S1x512x160.size a ≤ (i a).val ∧ (i a).val < win1_5.index t a * S1x512x160.size a + S1x512x160.size a := by
  show i ∈ ((View.whole main_v4).slice (win1_5.rect t)).set ↔ _
  rw [View.set_slice_whole, Rect.mem_set_unit]
  exact Iff.rfl

/-- The blocks tile the output array. -/
theorem cover5 (i : S16x2048x160.Idx) : ∃ t : Fin cfg1.N, (cfg1.win 5).flush t = true ∧ i ∈ ((cfg1.win 5).blk t).view.set := by
  have hi0 : (i 0).val < 16 := (i 0).isLt
  have hi1 : (i 1).val < 2048 := (i 1).isLt
  have hi2 : (i 2).val < 160 := (i 2).isLt
  obtain ⟨t, ht⟩ := idx_onto ⟨(i 0).val, hi0⟩ ⟨(i 1).val / 512, by omega⟩
  have q0 : win1_5.index t (0 : Fin 3) = (i 0).val := congrFun ht 0
  have q1 : win1_5.index t (1 : Fin 3) = (i 1).val / 512 := congrFun ht 1
  have q2 : win1_5.index t (2 : Fin 3) = 0 := congrFun ht 2
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; omega
  | ⟨1, _⟩ => show win1_5.index t (1 : Fin 3) * 512 ≤ (i 1).val ∧ (i 1).val < win1_5.index t (1 : Fin 3) * 512 + 512; omega
  | ⟨2, _⟩ => show win1_5.index t (2 : Fin 3) * 160 ≤ (i 2).val ∧ (i 2).val < win1_5.index t (2 : Fin 3) * 160 + 160; omega

/-- THE OUTPUT ARRAY after the region. -/
theorem out_final (c : Dev nD) :
    (dat1 V c).arrAt 5 cfg1.N = attnArr (V c main_arg0) (V c main_arg2) (V c main_v0) (V c main_v3_0) (V c main_v3_1) :=
  (dat1 V c).arrAt_eq_of_cover 5 _ (fun t _ => flushed5_eq V c t) cover5

end Cert.KernelIdeal.Region1

end
-- ==== Proof.KFold.lean ====
/-
  The contents of the result array at the last boundary of the run, as the specification of the launch memory.

  The run's boundaries are: the launch memory; after the three host reshapes of the bias vectors to rows; after the key/value
  projection region; after the attention region.  Read backwards: the attention region's output is the row-wise attention
  of the arrays it found; of those, `x` and the query weights are still the launch arrays (no host operation and no region
  wrote them), the query bias row is the reshape of the launch bias, and the key and value arrays are what the projection
  region left: the linear layers of `y` (a launch array) through the launch weights and the reshaped biases.  A reshaped
  bias read at `(0, e)` is the bias at `e`.  Put together this is `out` of the eight launch arrays.
-/
import proofs.«131270_g83305185673742_cont_9to1c4b_147_2_alg».proof.Proof.KRegion0
import proofs.«131270_g83305185673742_cont_9to1c4b_147_2_alg».proof.Proof.KRegion1
import Idealize.ShloMosaic.Lib.StableHlo.Run
import Idealize.ShloMosaic.Lib.ValueLayout

set_option maxRecDepth 16384

noncomputable section

namespace Cert.KernelIdeal.Fold

open Cert.KernelIdeal Cert.KernelIdeal.Gen Cert.CrossAttn
open Cert.KernelIdeal.Region0 (linArr keys_final values_final)
open Cert.KernelIdeal.Region1 (attnArr out_final)
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## After the host reshapes -/

theorem entry0_y (c : Dev nD) : V1 m ρ c main_arg1 = (m ((c : Thread nD τ).loc main_arg1)) := by
  show StableHlo.after hostOps0 (W0 m ρ c) (Proc.devRef .tc main_arg1) = _
  dsimp only [hostOps0]
  after_results <;> rfl
theorem entry0_wk (c : Dev nD) : V1 m ρ c main_arg4 = (m ((c : Thread nD τ).loc main_arg4)) := by
  show StableHlo.after hostOps0 (W0 m ρ c) (Proc.devRef .tc main_arg4) = _
  dsimp only [hostOps0]
  after_results <;> rfl
theorem entry0_wv (c : Dev nD) : V1 m ρ c main_arg6 = (m ((c : Thread nD τ).loc main_arg6)) := by
  show StableHlo.after hostOps0 (W0 m ρ c) (Proc.devRef .tc main_arg6) = _
  dsimp only [hostOps0]
  after_results <;> rfl
theorem entry0_x (c : Dev nD) : W1 m ρ c (Proc.devRef .tc main_arg0) = (m ((c : Thread nD τ).loc main_arg0)) := by
  show StableHlo.after hostOps0 (W0 m ρ c) (Proc.devRef .tc main_arg0) = _
  dsimp only [hostOps0]
  after_results <;> rfl
theorem entry0_wq (c : Dev nD) : W1 m ρ c (Proc.devRef .tc main_arg2) = (m ((c : Thread nD τ).loc main_arg2)) := by
  show StableHlo.after hostOps0 (W0 m ρ c) (Proc.devRef .tc main_arg2) = _
  dsimp only [hostOps0]
  after_results <;> rfl

/-- The query bias as a row. -/
theorem entry0_bq (c : Dev nD) (e' : Fin 160) :
    W1 m ρ c (Proc.devRef .tc main_v0) (ix2 (0 : Fin 1) e') = (m ((c : Thread nD τ).loc main_arg3)) (ix1 e') := by
  have h : W1 m ρ c (Proc.devRef .tc main_v0) = shapeCast S1x160 (m ((c : Thread nD τ).loc main_arg3)) shapeCasts_S160_S1x160 := by
    show StableHlo.after hostOps0 (W0 m ρ c) (Proc.devRef .tc main_v0) = _
    dsimp only [hostOps0]
    after_results <;> rfl
  exact (congrFun h _).trans (shapeCast_a_1a_apply _ shapeCasts_S160_S1x160 0 e')
/-- The key bias as a row. -/
theorem entry0_bk (c : Dev nD) (e' : Fin 160) :
    V1 m ρ c main_v1 (ix2 (0 : Fin 1) e') = (m ((c : Thread nD τ).loc main_arg5)) (ix1 e') := by
  have h : V1 m ρ c main_v1 = shapeCast S1x160 (m ((c : Thread nD τ).loc main_arg5)) shapeCasts_S160_S1x160 := by
    show StableHlo.after hostOps0 (W0 m ρ c) (Proc.devRef .tc main_v1) = _
    dsimp only [hostOps0]
    after_results <;> rfl
  exact (congrFun h _).trans (shapeCast_a_1a_apply _ shapeCasts_S160_S1x160 0 e')
/-- The value bias as a row. -/
theorem entry0_bv (c : Dev nD) (e' : Fin 160) :
    V1 m ρ c main_v2 (ix2 (0 : Fin 1) e') = (m ((c : Thread nD τ).loc main_arg7)) (ix1 e') := by
  have h : V1 m ρ c main_v2 = shapeCast S1x160 (m ((c : Thread nD τ).loc main_arg7)) shapeCasts_S160_S1x160 := by
    show StableHlo.after hostOps0 (W0 m ρ c) (Proc.devRef .tc main_v2) = _
    dsimp only [hostOps0]
    after_results <;> rfl
  exact (congrFun h _).trans (shapeCast_a_1a_apply _ shapeCasts_S160_S1x160 0 e')

/-! ## After the projection region -/

theorem entry1_x (c : Dev nD) : V2 m ρ c main_arg0 = (m ((c : Thread nD τ).loc main_arg0)) :=
  (W2_of_ne m ρ c main_arg0 (by decide)).trans (entry0_x m ρ c)
theorem entry1_wq (c : Dev nD) : V2 m ρ c main_arg2 = (m ((c : Thread nD τ).loc main_arg2)) :=
  (W2_of_ne m ρ c main_arg2 (by decide)).trans (entry0_wq m ρ c)
theorem entry1_bq (c : Dev nD) (e' : Fin 160) : V2 m ρ c main_v0 (ix2 (0 : Fin 1) e') = (m ((c : Thread nD τ).loc main_arg3)) (ix1 e') :=
  (congrFun (W2_of_ne m ρ c main_v0 (by decide)) _).trans (entry0_bq m ρ c e')
/-- The keys the attention region finds. -/
theorem entry1_k (c : Dev nD) : V2 m ρ c main_v3_0 = linArr (m ((c : Thread nD τ).loc main_arg1)) (m ((c : Thread nD τ).loc main_arg4)) (V1 m ρ c main_v1) :=
  ((W2_arr m ρ c 5).trans (keys_final (V1 m ρ) c)).trans (by rw [entry0_y, entry0_wk])
/-- The values the attention region finds. -/
theorem entry1_v (c : Dev nD) : V2 m ρ c main_v3_1 = linArr (m ((c : Thread nD τ).loc main_arg1)) (m ((c : Thread nD τ).loc main_arg6)) (V1 m ρ c main_v2) :=
  ((W2_arr m ρ c 6).trans (values_final (V1 m ρ) c)).trans (by rw [entry0_y, entry0_wv])

/-! ## The result array -/

/-- The result array at the run's last boundary is `out` of the launch arrays. -/
theorem result_eq (c : Dev nD) :
    W3 m ρ c (Proc.devRef .tc main_v4)
      = out (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  refine ((W3_arr m ρ c 5).trans (out_final (V2 m ρ) c)).trans ?_
  rw [entry1_x, entry1_wq, entry1_k, entry1_v]
  have hq : (fun e' : Fin 160 => V2 m ρ c main_v0 (ix2 (0 : Fin 1) e')) = fun e' => (m ((c : Thread nD τ).loc main_arg3)) (ix1 e') := funext (entry1_bq m ρ c)
  have hk : (fun e' : Fin 160 => V1 m ρ c main_v1 (ix2 (0 : Fin 1) e')) = fun e' => (m ((c : Thread nD τ).loc main_arg5)) (ix1 e') := funext (entry0_bk m ρ c)
  have hv : (fun e' : Fin 160 => V1 m ρ c main_v2 (ix2 (0 : Fin 1) e')) = fun e' => (m ((c : Thread nD τ).loc main_arg7)) (ix1 e') := funext (entry0_bv m ρ c)
  funext i
  obtain ⟨n, r, e, rfl⟩ : ∃ (n : Fin 16) (r : Fin 2048) (e : Fin 160), i = ix3 n r e := ⟨i 0, i 1, i 2, eq_ix3 i⟩
  unfold attnArr linArr
  rw [hq, hk, hv]
  rfl

end Cert.KernelIdeal.Fold

end
-- ==== Proof.RefValue.lean ====
/-
  The reference at the ideal values is the specification: its stages, read at an index one operation at a time,
  are the projections `x · Wq + bq`, `y · Wk + bk`, `y · Wv + bv`, the scores of every query row against the key rows
  of its batch element, each row's maximum (a fold of `max` from minus infinity, then one more maximum with minus
  infinity, which changes nothing), the exponentials of the scores less that maximum, their row sums from zero, the
  quotients, the weighted sums of the value rows, and the residual added: `out` entry by entry.
-/
import proofs.«131270_g83305185673742_cont_9to1c4b_147_2_alg».proof.Proof.Gen.ReferenceIdeal.Read
import proofs.«131270_g83305185673742_cont_9to1c4b_147_2_alg».proof.Proof.Spec
import Idealize.ShloMosaic.PureOps.Reduce

noncomputable section

namespace Cert.ReferenceIdeal.Bridge

open Cert.ReferenceIdeal Cert.ReferenceIdeal.Gen Cert.ReferenceIdeal.Read Cert.CrossAttn
open Idealize.ShloMosaic Idealize.ShloMosaic.ValueIdx

local macro "coords3" : term => `(funext fun a => Fin.ext (by match a with | ⟨0, _⟩ => rfl | ⟨1, _⟩ => rfl | ⟨2, _⟩ => rfl))
local macro "coords2" : term => `(funext fun a => Fin.ext (by match a with | ⟨0, _⟩ => rfl | ⟨1, _⟩ => rfl))
local macro "coords1" : term => `(funext fun a => Fin.ext (by match a with | ⟨0, _⟩ => rfl))

variable (x0 x1 : (⟨S16x2048x160, .f32⟩ : BufTy).Contents (Elt Ideal)) (x2 : (⟨S160x160, .f32⟩ : BufTy).Contents (Elt Ideal))
  (x3 : (⟨S160, .f32⟩ : BufTy).Contents (Elt Ideal)) (x4 : (⟨S160x160, .f32⟩ : BufTy).Contents (Elt Ideal))
  (x5 : (⟨S160, .f32⟩ : BufTy).Contents (Elt Ideal)) (x6 : (⟨S160x160, .f32⟩ : BufTy).Contents (Elt Ideal))
  (x7 : (⟨S160, .f32⟩ : BufTy).Contents (Elt Ideal))

/-! ## The three projections -/

/-- The queries: `x · Wq + bq`. -/
theorem query_apply (n : Fin 16) (r : Fin 2048) (e : Fin 160) :
    val_main_v3 (F := Ideal) x0 x2 x3 (ix3 n r e) = proj x0 x2 x3 n r e := by
  rw [val_main_v3_apply, val_main_v0_apply, val_main_v2_apply, val_main_v1_apply]
  exact congrArg₂ (· + ·)
    (Finset.sum_congr rfl fun k _ => congrArg₂ (· * ·)
      (congrArg x0 (coords3 : lidx_main_v0 (ix3 n r e) k = ix3 n r k))
      (congrArg x2 (coords2 : ridx_main_v0 (ix3 n r e) k = ix2 k e)))
    (congrArg x3 (coords1 : idx_main_v1 (idx_main_v2 (ix3 n r e)) = ix1 e))

/-- The keys: `y · Wk + bk`. -/
theorem key_apply (n : Fin 16) (r : Fin 2048) (e : Fin 160) :
    val_main_v7 (F := Ideal) x1 x4 x5 (ix3 n r e) = proj x1 x4 x5 n r e := by
  rw [val_main_v7_apply, val_main_v4_apply, val_main_v6_apply, val_main_v5_apply]
  exact congrArg₂ (· + ·)
    (Finset.sum_congr rfl fun k _ => congrArg₂ (· * ·)
      (congrArg x1 (coords3 : lidx_main_v4 (ix3 n r e) k = ix3 n r k))
      (congrArg x4 (coords2 : ridx_main_v4 (ix3 n r e) k = ix2 k e)))
    (congrArg x5 (coords1 : idx_main_v5 (idx_main_v6 (ix3 n r e)) = ix1 e))

/-- The values: `y · Wv + bv`. -/
theorem value_apply (n : Fin 16) (r : Fin 2048) (e : Fin 160) :
    val_main_v11 (F := Ideal) x1 x6 x7 (ix3 n r e) = proj x1 x6 x7 n r e := by
  rw [val_main_v11_apply, val_main_v8_apply, val_main_v10_apply, val_main_v9_apply]
  exact congrArg₂ (· + ·)
    (Finset.sum_congr rfl fun k _ => congrArg₂ (· * ·)
      (congrArg x1 (coords3 : lidx_main_v8 (ix3 n r e) k = ix3 n r k))
      (congrArg x6 (coords2 : ridx_main_v8 (ix3 n r e) k = ix2 k e)))
    (congrArg x7 (coords1 : idx_main_v9 (idx_main_v10 (ix3 n r e)) = ix1 e))

/-! ## Scores, their row maxima, the weights and their row sums -/

/-- The scores of batch element `n`: query row `r` against key row `j`. -/
theorem scores_apply (n : Fin 16) (r j : Fin 2048) :
    val_main_v12 (F := Ideal) x0 x1 x2 x3 x4 x5 (ix3 n r j) = scores (proj x0 x2 x3 n r) (proj x1 x4 x5 n) j := by
  rw [val_main_v12_apply]
  exact Finset.sum_congr rfl fun k _ => congrArg₂ (· * ·)
    ((congrArg (val_main_v3 (F := Ideal) x0 x2 x3) (coords3 : lidx_main_v12 (ix3 n r j) k = ix3 n r k)).trans (query_apply x0 x2 x3 n r k))
    ((congrArg (val_main_v7 (F := Ideal) x1 x4 x5) (coords3 : ridx_main_v12 (ix3 n r j) k = ix3 n j k)).trans (key_apply x1 x4 x5 n j k))

/-- The reduce over the key axis is the fold of `max` over the row's scores. -/
theorem reduce_max_apply (n : Fin 16) (r : Fin 2048) :
    val_main_v13 (F := Ideal) x0 x1 x2 x3 x4 x5 (ix2 n r) = rowMax (scores (proj x0 x2 x3 n r) (proj x1 x4 x5 n)) := by
  unfold val_main_v13
  refine (Host.reduce_eq_fold_single FloatOps.maximumf _ _ reducesTo_S16x2048x2048_S16x2048_d2
    (by decide : S16x2048x2048.Reduces [2] S16x2048) h_S_ (ix2 n r)).trans ?_
  exact congrArg (fun f : Fin 2048 → EReal => (Finset.univ : Finset (Fin 2048)).fold max negInf f)
    (funext fun (j : Fin 2048) =>
      (congrArg (val_main_v12 (F := Ideal) x0 x1 x2 x3 x4 x5) (coords3 : _ = ix3 n r j)).trans (scores_apply x0 x1 x2 x3 x4 x5 n r j))

/-- The row maximum the softmax subtracts: the reduce, once more against minus infinity. -/
theorem row_max_apply (n : Fin 16) (r : Fin 2048) :
    val_main_v15 (F := Ideal) x0 x1 x2 x3 x4 x5 (ix2 n r) = rowMax (scores (proj x0 x2 x3 n r) (proj x1 x4 x5 n)) := by
  rw [val_main_v15_apply, val_main_v14_apply, val_main_cst_0_apply, reduce_max_apply]
  exact max_fold_max_self _ negInf _

/-- The unnormalised weights. -/
theorem weight_apply (n : Fin 16) (r j : Fin 2048) :
    val_main_v19 (F := Ideal) x0 x1 x2 x3 x4 x5 (ix3 n r j) = weight (scores (proj x0 x2 x3 n r) (proj x1 x4 x5 n)) j := by
  rw [val_main_v19_apply, val_main_v18_apply, val_main_v17_apply, val_main_v16_apply, scores_apply]
  exact congrArg (fun z => Ideal.exp (scores (proj x0 x2 x3 n r) (proj x1 x4 x5 n) j - z))
    ((congrArg (val_main_v15 (F := Ideal) x0 x1 x2 x3 x4 x5) (coords2 : idx_main_v16 (idx_main_v17 (ix3 n r j)) = ix2 n r)).trans
      (row_max_apply x0 x1 x2 x3 x4 x5 n r))

/-- The denominators: each row's weights summed from zero. -/
theorem denom_apply (n : Fin 16) (r j : Fin 2048) :
    val_main_v22 (F := Ideal) x0 x1 x2 x3 x4 x5 (ix3 n r j)
      = ∑ j' : Fin 2048, weight (scores (proj x0 x2 x3 n r) (proj x1 x4 x5 n)) j' := by
  rw [val_main_v22_apply, val_main_v21_apply]
  refine (congrArg (val_main_v20 (F := Ideal) x0 x1 x2 x3 x4 x5) (coords2 : idx_main_v21 (idx_main_v22 (ix3 n r j)) = ix2 n r)).trans ?_
  rw [val_main_v20_apply, val_main_cst_1_apply]
  refine (congrArg (· + _) (Ideal.ofBits_zero_f32)).trans ((zero_add _).trans ?_)
  exact Finset.sum_congr rfl fun k _ =>
    (congrArg (val_main_v19 (F := Ideal) x0 x1 x2 x3 x4 x5) (coords3 : idx_main_v20 (ix2 n r) k = ix3 n r k)).trans
      (weight_apply x0 x1 x2 x3 x4 x5 n r k)

/-- The softmax weights. -/
theorem softmax_apply (n : Fin 16) (r j : Fin 2048) :
    val_main_v23 (F := Ideal) x0 x1 x2 x3 x4 x5 (ix3 n r j)
      = Ideal.div (weight (scores (proj x0 x2 x3 n r) (proj x1 x4 x5 n)) j)
          (∑ j' : Fin 2048, weight (scores (proj x0 x2 x3 n r) (proj x1 x4 x5 n)) j') := by
  rw [val_main_v23_apply, weight_apply, denom_apply]
  rfl

/-! ## The result -/

/-- The reference's result is `out` of its arguments. -/
theorem result_eq : val_main_v25 (F := Ideal) x0 x1 x2 x3 x4 x5 x6 x7 = out x0 x1 x2 x3 x4 x5 x6 x7 := by
  funext i
  obtain ⟨n, r, e, rfl⟩ : ∃ (n : Fin 16) (r : Fin 2048) (e : Fin 160), i = ix3 n r e := ⟨i 0, i 1, i 2, eq_ix3 i⟩
  rw [out_ix3, val_main_v25_apply, val_main_v24_apply]
  exact congrArg (· + x0 (ix3 n r e)) (Finset.sum_congr rfl fun k _ => congrArg₂ (· * ·)
    ((congrArg (val_main_v23 (F := Ideal) x0 x1 x2 x3 x4 x5) (coords3 : lidx_main_v24 (ix3 n r e) k = ix3 n r k)).trans
      (softmax_apply x0 x1 x2 x3 x4 x5 n r k))
    ((congrArg (val_main_v11 (F := Ideal) x1 x6 x7) (coords3 : ridx_main_v24 (ix3 n r e) k = ix3 n k e)).trans
      (value_apply x1 x6 x7 n k e)))

end Cert.ReferenceIdeal.Bridge

end
-- ==== Proof.lean ====
/-
  Single-head cross-attention with a residual, `softmax(q kᵀ) v + x` with `q = x Wq + bq`, `k = y Wk + bk`, `v = y Wv + bv`,
  computed by two pipelined kernels (one projects `y` to keys and values block by block; one, per batch element and block of
  512 query rows, projects the queries, scores them against all 2048 keys, takes the exact softmax along the key axis and
  applies it to the values) against the same formula written with whole-array operations.

  Over the extended reals the two are the same function entry by entry (`Cert.CrossAttn.out`): every sum is an exact finite
  sum, so tiling the rows into blocks changes nothing; a matrix product into a zero accumulator is the plain sum of products;
  the row maximum is in both a fold of `max` from minus infinity (the reference takes one more maximum with minus infinity,
  the identity); exponential, subtraction and division are the same ideal operations on both sides.  No law that could fail
  at an infinity is used, so the precondition is never opened.

  The kernel's result array is read off its run (the launch of both regions, the result array named at the last boundary),
  folded back through the attention region, the projection region and the host reshapes of the biases to the launch arrays;
  the reference's result is read stage by stage.  The idealization rewrote nothing, so `preserves` is trivial; the frames
  are the generated ones, the reference's its run with the result dropped.
-/
import proofs.«131270_g83305185673742_cont_9to1c4b_147_2_alg».proof.Defs
import proofs.«131270_g83305185673742_cont_9to1c4b_147_2_alg».proof.Proof.Gen.Kernel
import proofs.«131270_g83305185673742_cont_9to1c4b_147_2_alg».proof.Proof.Gen.Kernel.Skeleton
import proofs.«131270_g83305185673742_cont_9to1c4b_147_2_alg».proof.Proof.Gen.Kernel.Launch
import proofs.«131270_g83305185673742_cont_9to1c4b_147_2_alg».proof.Proof.Gen.Kernel.Points
import proofs.«131270_g83305185673742_cont_9to1c4b_147_2_alg».proof.Proof.Gen.Kernel.Frame
import proofs.«131270_g83305185673742_cont_9to1c4b_147_2_alg».proof.Proof.Gen.KernelIdeal
import proofs.«131270_g83305185673742_cont_9to1c4b_147_2_alg».proof.Proof.Gen.KernelIdeal.Skeleton
import proofs.«131270_g83305185673742_cont_9to1c4b_147_2_alg».proof.Proof.Gen.KernelIdeal.Launch
import proofs.«131270_g83305185673742_cont_9to1c4b_147_2_alg».proof.Proof.Gen.KernelIdeal.Points
import proofs.«131270_g83305185673742_cont_9to1c4b_147_2_alg».proof.Proof.Gen.KernelIdeal.Frame
import proofs.«131270_g83305185673742_cont_9to1c4b_147_2_alg».proof.Proof.Gen.ReferenceIdeal
import proofs.«131270_g83305185673742_cont_9to1c4b_147_2_alg».proof.Proof.Gen.ReferenceIdeal.Run
import proofs.«131270_g83305185673742_cont_9to1c4b_147_2_alg».proof.Proof.Gen.ReferenceIdeal.Read
import proofs.«131270_g83305185673742_cont_9to1c4b_147_2_alg».proof.Proof.Gen.Pre_finite_inputs
import proofs.«131270_g83305185673742_cont_9to1c4b_147_2_alg».proof.Proof.KRun
import proofs.«131270_g83305185673742_cont_9to1c4b_147_2_alg».proof.Proof.KFold
import proofs.«131270_g83305185673742_cont_9to1c4b_147_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result array at `out` of the launch arrays, which agree. -/
theorem algebraic : Cert.algebraic_KernelIdeal_ReferenceIdeal := by
  intro m ρ m' ρ' _ hagree
  refine ⟨fun c => Cert.CrossAttn.out (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Fold.result_eq m ρ c), (h c).2⟩) (Cert.KernelIdeal.Run.run m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v25_eq, Cert.ReferenceIdeal.Bridge.result_eq,
      (hagree c).1, (hagree c).2.1, (hagree c).2.2.1, (hagree c).2.2.2.1, (hagree c).2.2.2.2.1, (hagree c).2.2.2.2.2.1,
      (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
